-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x32x64 : Shape := ⟨3, ![16384, 32, 64]⟩
abbrev S_ : Shape := ⟨0, ![]⟩

class Facts : Prop where
  bcast_S_S16384x32x64 : S_.BroadcastsInDim S16384x32x64 (![] : Fin 0 → Fin S16384x32x64.rank)
  reducesTo_S16384x32x64_S_d0_1_2 : S16384x32x64.ReducesTo [0, 1, 2] S_
  h_S_ : 0 < S_.numel

variable [Facts]

def fn {F : FTy → Type} [FloatOps F] (main_arg0 : FVec F S16384x32x64 .f32) : IVec S_ 1 :=
  let main_v0 : FVec F S16384x32x64 .f32 := Host.absf main_arg0
  let main_cst : FVec F S_ .f32 := constant S_ .f32 0x7F800000#32
  let main_v1 : FVec F S16384x32x64 .f32 := broadcastInDim S16384x32x64 ![] bcast_S_S16384x32x64 main_cst
  let main_v2 : IVec S16384x32x64 1 := cmpf .olt main_v0 main_v1
  let main_c : IVec S_ 1 := constantI S_ 1 1#1
  let main_v3 : IVec S_ 1 := (fun x v => Host.reduce IntOp.andi x v reducesTo_S16384x32x64_S_d0_1_2 h_S_) main_v2 main_c
  main_v3
-- ==== Kernel.lean ====
abbrev S16384x32x64 : Shape := ⟨3, ![16384, 32, 64]⟩
abbrev S496 : Shape := ⟨1, ![496]⟩
abbrev S16384x32x32 : Shape := ⟨3, ![16384, 32, 32]⟩
abbrev S1024x32x64 : Shape := ⟨3, ![1024, 32, 64]⟩
abbrev S1024x32x32 : Shape := ⟨3, ![1024, 32, 32]⟩
abbrev S_ : Shape := ⟨0, ![]⟩
abbrev S496x1 : Shape := ⟨2, ![496, 1]⟩
abbrev S496x2 : Shape := ⟨2, ![496, 2]⟩
abbrev S16384x496 : Shape := ⟨2, ![16384, 496]⟩
abbrev S16384x496x1 : Shape := ⟨3, ![16384, 496, 1]⟩

abbrev nBuf : Space → Nat
  | .hbm => 19
  | .vmem => 4
  | .smem => 0
  | _ => 0

abbrev bufTy : (tb : Table) → Fin (tcTables nBuf tb) → BufTy
  | .hbm, ⟨0, _⟩ => ⟨S16384x32x64, .f32⟩
  | .hbm, ⟨1, _⟩ => ⟨S496, .i32⟩
  | .hbm, ⟨2, _⟩ => ⟨S496, .i1⟩
  | .hbm, ⟨3, _⟩ => ⟨S496, .i32⟩
  | .hbm, ⟨4, _⟩ => ⟨S496, .i1⟩
  | .hbm, ⟨5, _⟩ => ⟨S16384x32x32, .f32⟩
  | .hbm, ⟨6, _⟩ => ⟨S_, .i32⟩
  | .hbm, ⟨7, _⟩ => ⟨S496, .i32⟩
  | .hbm, ⟨8, _⟩ => ⟨S496, .i32⟩
  | .hbm, ⟨9, _⟩ => ⟨S496, .i32⟩
  | .hbm, ⟨10, _⟩ => ⟨S_, .i32⟩
  | .hbm, ⟨11, _⟩ => ⟨S496, .i32⟩
  | .hbm, ⟨12, _⟩ => ⟨S496, .i32⟩
  | .hbm, ⟨13, _⟩ => ⟨S496, .i32⟩
  | .hbm, ⟨14, _⟩ => ⟨S496x1, .i32⟩
  | .hbm, ⟨15, _⟩ => ⟨S496x1, .i32⟩
  | .hbm, ⟨16, _⟩ => ⟨S496x2, .i32⟩
  | .hbm, ⟨17, _⟩ => ⟨S16384x496, .f32⟩
  | .hbm, ⟨18, _⟩ => ⟨S16384x496x1, .f32⟩
  | .local _ .vmem, ⟨0, _⟩ => ⟨S1024x32x64, .f32⟩
  | .local _ .vmem, ⟨1, _⟩ => ⟨S1024x32x64, .f32⟩
  | .local _ .vmem, ⟨2, _⟩ => ⟨S1024x32x32, .f32⟩
  | .local _ .vmem, ⟨3, _⟩ => ⟨S1024x32x32, .f32⟩
  | _, _ => ⟨S16384x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_v0 : Ref sig .tc := ⟨.hbm, 5, rfl⟩
abbrev main_c_3 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_4 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x32x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x32x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1024x32x64_S1024x32x64_0_0_0 : ∀ a, (![0, 0, 0] : Fin 3 → Nat) a + S1024x32x64.size a ≤ S1024x32x64.size a
  h_S1024x32x64 : 0 < S1024x32x64.numel
  bitsLt_bf16_f32 : FTy.bits .bf16 < FTy.bits .f32
  inb_S1024x32x32_S1024x32x32_0_0_0 : ∀ a, (![0, 0, 0] : Fin 3 → Nat) a + S1024x32x32.size a ≤ S1024x32x32.size a
  h_S1024x32x32 : 0 < S1024x32x32.numel
  bcast_S_S496 : S_.BroadcastsInDim S496 (![] : Fin 0 → Fin S496.rank)
  bcast_S496_S496x1_0 : S496.BroadcastsInDim S496x1 (![0] : Fin 1 → Fin S496x1.rank)
  concatenates_S496x1_S496x1_S496x2_d1 : Shape.Concatenates [S496x1, S496x1] S496x2 1
  bcast_S16384x496_S16384x496x1_0_1 : S16384x496.BroadcastsInDim S16384x496x1 (![0, 1] : Fin 2 → Fin S16384x496x1.rank)
  dot_S1024x32x64_S1024x32x64_S1024x32x32_2_2_1_1_0_0_wf : DotDims.WF S1024x32x64 S1024x32x64 S1024x32x32 [2] [2] [1] [1] [0] [0]
  gather_S16384x32x32_S496x2_S16384x496_0_12_n_n_12_1_1638411_wf : GatherDims.WF S16384x32x32 S496x2 S16384x496 [0] [1, 2] [] [1, 2] [] 1 ![16384, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x32x64.size a ≤ S16384x32x64.size a
  hwx0_0 : ∀ i : grid0.Coords, EltTy.bits .f32 = 32 ∨ (Rect.block (s := S16384x32x64) S1024x32x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x32x32.size a ≤ S16384x32x32.size a
  hwx0_1 : ∀ i : grid0.Coords, EltTy.bits .f32 = 32 ∨ (Rect.block (s := S16384x32x32) S1024x32x32.size (cc0_transform_1 i) (hinb0_1 i)).WholeWords (EltTy.packing .f32)

variable [Facts₀]

def dot_S1024x32x64_S1024x32x64_S1024x32x32_2_2_1_1_0_0 : DotDims S1024x32x64 S1024x32x64 S1024x32x32 where
  lhsContracting := [2]
  rhsContracting := [2]
  lhsNonContracting := [1]
  rhsNonContracting := [1]
  lhsBatch := [0]
  rhsBatch := [0]
  wf := dot_S1024x32x64_S1024x32x64_S1024x32x32_2_2_1_1_0_0_wf
def gather_S16384x32x32_S496x2_S16384x496_0_12_n_n_12_1_1638411 : GatherDims S16384x32x32 S496x2 S16384x496 where
  offsetDims := [0]
  collapsedSliceDims := [1, 2]
  operandBatchingDims := []
  startIndicesBatchingDims := []
  startIndexMap := [1, 2]
  indexVectorDim := 1
  sliceSizes := ![16384, 1, 1]
  wf := gather_S16384x32x32_S496x2_S16384x496_0_12_n_n_12_1_1638411_wf

abbrev win0_0 : Pipeline.Window sig grid0 :=
  Pipeline.Window.ofSpec (Memref.whole main_arg0) S1024x32x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x32x32.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16384x32x64 : Shape := ⟨3, ![16384, 32, 64]⟩
abbrev S16384x32x32 : Shape := ⟨3, ![16384, 32, 32]⟩
abbrev S_ : Shape := ⟨0, ![]⟩
abbrev S32x32 : Shape := ⟨2, ![32, 32]⟩
abbrev S1024 : Shape := ⟨1, ![1024]⟩
abbrev S496 : Shape := ⟨1, ![496]⟩
abbrev S1024x1 : Shape := ⟨2, ![1024, 1]⟩
abbrev S496x1 : Shape := ⟨2, ![496, 1]⟩
abbrev S496x2 : Shape := ⟨2, ![496, 2]⟩
abbrev S16384x496 : Shape := ⟨2, ![16384, 496]⟩
abbrev S16384x496x1 : Shape := ⟨3, ![16384, 496, 1]⟩

abbrev nBuf : Space → Nat
  | .hbm => 138
  | .vmem => 0
  | .smem => 0
  | _ => 0

abbrev hbmTy0_0 (i : Nat) : BufTy := match i % 128 with
  | 0 => ⟨S16384x32x64, .f32⟩
  | 1 => ⟨S16384x32x32, .f32⟩
  | 2 => ⟨S_, .f32⟩
  | 3 => ⟨S32x32, .f32⟩
  | 4 => ⟨S32x32, .i32⟩
  | 5 => ⟨S_, .i32⟩
  | 6 => ⟨S32x32, .i32⟩
  | 7 => ⟨S32x32, .i32⟩
  | 8 => ⟨S32x32, .i32⟩
  | 9 => ⟨S32x32, .i1⟩
  | 10 => ⟨S_, .f32⟩
  | 11 => ⟨S32x32, .f32⟩
  | 12 => ⟨S32x32, .f32⟩
  | 13 => ⟨S_, .f32⟩
  | 14 => ⟨S32x32, .f32⟩
  | 15 => ⟨S32x32, .i1⟩
  | 16 => ⟨S1024, .i1⟩
  | 17 => ⟨S1024, .i32⟩
  | 18 => ⟨S_, .i32⟩
  | 19 => ⟨S_, .i32⟩
  | 20 => ⟨S1024, .i32⟩
  | 21 => ⟨S_, .i32⟩
  | 22 => ⟨S496, .i32⟩
  | 23 => ⟨S_, .i32⟩
  | 24 => ⟨S_, .i32⟩
  | 25 => ⟨S1024, .i32⟩
  | 26 => ⟨S1024, .i32⟩
  | 27 => ⟨S_, .i32⟩
  | 28 => ⟨S1024, .i32⟩
  | 29 => ⟨S1024, .i1⟩
  | 30 => ⟨S_, .i32⟩
  | 31 => ⟨S1024, .i32⟩
  | 32 => ⟨S1024, .i32⟩
  | 33 => ⟨S1024, .i32⟩
  | 34 => ⟨S1024x1, .i32⟩
  | 35 => ⟨S_, .i32⟩
  | 36 => ⟨S1024, .i32⟩
  | 37 => ⟨S496, .i32⟩
  | 38 => ⟨S_, .i32⟩
  | 39 => ⟨S_, .i32⟩
  | 40 => ⟨S496, .i32⟩
  | 41 => ⟨S_, .i32⟩
  | 42 => ⟨S496, .i32⟩
  | 43 => ⟨S496, .i32⟩
  | 44 => ⟨S496, .i32⟩
  | 45 => ⟨S_, .i32⟩
  | 46 => ⟨S496, .i32⟩
  | 47 => ⟨S496, .i1⟩
  | 48 => ⟨S496, .i32⟩
  | 49 => ⟨S496, .i32⟩
  | 50 => ⟨S_, .i32⟩
  | 51 => ⟨S496, .i32⟩
  | 52 => ⟨S496, .i1⟩
  | 53 => ⟨S496, .i1⟩
  | 54 => ⟨S_, .i32⟩
  | 55 => ⟨S496, .i32⟩
  | 56 => ⟨S496, .i32⟩
  | 57 => ⟨S496, .i32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S496, .i32⟩
  | 65 => ⟨S496, .i32⟩
  | 66 => ⟨S_, .i32⟩
  | 67 => ⟨S496, .i32⟩
  | 68 => ⟨S496, .i1⟩
  | 69 => ⟨S_, .i32⟩
  | 70 => ⟨S496, .i32⟩
  | 71 => ⟨S496, .i1⟩
  | 72 => ⟨S_, .i32⟩
  | 73 => ⟨S_, .i1⟩
  | 74 => ⟨S496, .i1⟩
  | 75 => ⟨S496, .i1⟩
  | 76 => ⟨S496, .i1⟩
  | 77 => ⟨S496, .i32⟩
  | 78 => ⟨S496, .i32⟩
  | 79 => ⟨S496, .i32⟩
  | 80 => ⟨S_, .i32⟩
  | 81 => ⟨S496, .i32⟩
  | 82 => ⟨S496, .i32⟩
  | 83 => ⟨S496, .i32⟩
  | 84 => ⟨S_, .i32⟩
  | 85 => ⟨S496, .i32⟩
  | 86 => ⟨S496, .i1⟩
  | 87 => ⟨S496, .i32⟩
  | 88 => ⟨S496, .i32⟩
  | 89 => ⟨S_, .i32⟩
  | 90 => ⟨S496, .i32⟩
  | 91 => ⟨S496, .i1⟩
  | 92 => ⟨S496, .i1⟩
  | 93 => ⟨S_, .i32⟩
  | 94 => ⟨S496, .i32⟩
  | 95 => ⟨S496, .i32⟩
  | 96 => ⟨S496, .i32⟩
  | 97 => ⟨S_, .i32⟩
  | 98 => ⟨S_, .i32⟩
  | 99 => ⟨S_, .i32⟩
  | 100 => ⟨S_, .i1⟩
  | 101 => ⟨S_, .i32⟩
  | 102 => ⟨S_, .i32⟩
  | 103 => ⟨S496, .i32⟩
  | 104 => ⟨S496, .i32⟩
  | 105 => ⟨S_, .i32⟩
  | 106 => ⟨S496, .i32⟩
  | 107 => ⟨S496, .i1⟩
  | 108 => ⟨S_, .i32⟩
  | 109 => ⟨S496, .i32⟩
  | 110 => ⟨S496, .i1⟩
  | 111 => ⟨S_, .i32⟩
  | 112 => ⟨S_, .i1⟩
  | 113 => ⟨S496, .i1⟩
  | 114 => ⟨S496, .i1⟩
  | 115 => ⟨S496, .i1⟩
  | 116 => ⟨S496, .i32⟩
  | 117 => ⟨S496, .i32⟩
  | 118 => ⟨S496, .i32⟩
  | 119 => ⟨S_, .i32⟩
  | 120 => ⟨S496, .i32⟩
  | 121 => ⟨S496, .i1⟩
  | 122 => ⟨S_, .i32⟩
  | 123 => ⟨S496, .i32⟩
  | 124 => ⟨S496, .i32⟩
  | 125 => ⟨S496, .i32⟩
  | 126 => ⟨S_, .i32⟩
  | 127 => ⟨S496, .i32⟩
  | _ => ⟨S16384x32x64, .f32⟩

abbrev hbmTy0_1 (i : Nat) : BufTy := match i % 128 with
  | 0 => ⟨S496, .i1⟩
  | 1 => ⟨S_, .i32⟩
  | 2 => ⟨S496, .i32⟩
  | 3 => ⟨S496, .i32⟩
  | 4 => ⟨S496, .i32⟩
  | 5 => ⟨S496x1, .i32⟩
  | 6 => ⟨S496x1, .i32⟩
  | 7 => ⟨S496x2, .i32⟩
  | 8 => ⟨S16384x496, .f32⟩
  | 9 => ⟨S16384x496x1, .f32⟩
  | _ => ⟨S16384x32x64, .f32⟩

abbrev hbmTy (i : Nat) : BufTy := match i / 128 with
  | 0 => hbmTy0_0 i
  | 1 => hbmTy0_1 i
  | _ => ⟨S16384x32x64, .f32⟩

abbrev bufTy : (tb : Table) → Fin (tcTables nBuf tb) → BufTy
  | .hbm, ⟨i, _⟩ => hbmTy i
  | _, _ => ⟨S16384x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_cst : Ref sig .tc := ⟨.hbm, 10, rfl⟩
abbrev main_call0_v5 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_call1_v0 : Ref sig .tc := ⟨.hbm, 16, rfl⟩
abbrev main_call1_v1 : Ref sig .tc := ⟨.hbm, 17, rfl⟩
abbrev main_call1_call0_c : Ref sig .tc := ⟨.hbm, 18, rfl⟩
abbrev main_call1_call0_v0 : Ref sig .tc := ⟨.hbm, 19, rfl⟩
abbrev main_v5 : Ref sig .tc := ⟨.hbm, 20, rfl⟩
abbrev main_c : Ref sig .tc := ⟨.hbm, 21, rfl⟩
abbrev main_v6 : Ref sig .tc := ⟨.hbm, 22, rfl⟩
abbrev main_c_1 : Ref sig .tc := ⟨.hbm, 23, rfl⟩
abbrev main_call2_v0 : Ref sig .tc := ⟨.hbm, 24, rfl⟩
abbrev main_call2_v1 : Ref sig .tc := ⟨.hbm, 25, rfl⟩
abbrev main_v7 : Ref sig .tc := ⟨.hbm, 26, rfl⟩
abbrev main_c_2 : Ref sig .tc := ⟨.hbm, 27, rfl⟩
abbrev main_v8 : Ref sig .tc := ⟨.hbm, 28, rfl⟩
abbrev main_v9 : Ref sig .tc := ⟨.hbm, 29, rfl⟩
abbrev main_c_3 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c_4 : Ref sig .tc := ⟨.hbm, 35, rfl⟩
abbrev main_v14 : Ref sig .tc := ⟨.hbm, 36, rfl⟩
abbrev main_v15 : Ref sig .tc := ⟨.hbm, 37, rfl⟩
abbrev main_call3_call0_c : Ref sig .tc := ⟨.hbm, 38, rfl⟩
abbrev main_call3_call0_v0 : Ref sig .tc := ⟨.hbm, 39, rfl⟩
abbrev main_v16 : Ref sig .tc := ⟨.hbm, 40, rfl⟩
abbrev main_c_5 : Ref sig .tc := ⟨.hbm, 41, rfl⟩
abbrev main_call4_v0 : Ref sig .tc := ⟨.hbm, 42, rfl⟩
abbrev main_call4_v1 : Ref sig .tc := ⟨.hbm, 43, rfl⟩
abbrev main_call4_v2 : Ref sig .tc := ⟨.hbm, 44, rfl⟩
abbrev main_call4_v3 : Ref sig .tc := ⟨.hbm, 45, rfl⟩
abbrev main_call4_v4 : Ref sig .tc := ⟨.hbm, 46, rfl⟩
abbrev main_call4_v5 : Ref sig .tc := ⟨.hbm, 47, rfl⟩
abbrev main_call4_v6 : Ref sig .tc := ⟨.hbm, 48, rfl⟩
abbrev main_call4_v7 : Ref sig .tc := ⟨.hbm, 49, rfl⟩
abbrev main_call4_c : Ref sig .tc := ⟨.hbm, 50, rfl⟩
abbrev main_call4_v8 : Ref sig .tc := ⟨.hbm, 51, rfl⟩
abbrev main_call4_v9 : Ref sig .tc := ⟨.hbm, 52, rfl⟩
abbrev main_call4_v10 : Ref sig .tc := ⟨.hbm, 53, rfl⟩
abbrev main_call4_c_0 : Ref sig .tc := ⟨.hbm, 54, rfl⟩
abbrev main_call4_v11 : Ref sig .tc := ⟨.hbm, 55, rfl⟩
abbrev main_call4_v12 : Ref sig .tc := ⟨.hbm, 56, rfl⟩
abbrev main_v17 : Ref sig .tc := ⟨.hbm, 57, rfl⟩
abbrev main_c_6 : Ref sig .tc := ⟨.hbm, 58, rfl⟩
abbrev main_call5_v0 : Ref sig .tc := ⟨.hbm, 59, rfl⟩
abbrev main_call5_c : Ref sig .tc := ⟨.hbm, 60, rfl⟩
abbrev main_call5_v1 : Ref sig .tc := ⟨.hbm, 61, rfl⟩
abbrev main_call5_c_0 : Ref sig .tc := ⟨.hbm, 62, rfl⟩
abbrev main_call5_v2 : Ref sig .tc := ⟨.hbm, 63, rfl⟩
abbrev main_call5_v3 : Ref sig .tc := ⟨.hbm, 64, rfl⟩
abbrev main_call5_v4 : Ref sig .tc := ⟨.hbm, 65, rfl⟩
abbrev main_call5_c_1 : Ref sig .tc := ⟨.hbm, 66, rfl⟩
abbrev main_call5_v5 : Ref sig .tc := ⟨.hbm, 67, rfl⟩
abbrev main_call5_v6 : Ref sig .tc := ⟨.hbm, 68, rfl⟩
abbrev main_call5_c_2 : Ref sig .tc := ⟨.hbm, 69, rfl⟩
abbrev main_call5_v7 : Ref sig .tc := ⟨.hbm, 70, rfl⟩
abbrev main_call5_v8 : Ref sig .tc := ⟨.hbm, 71, rfl⟩
abbrev main_call5_c_3 : Ref sig .tc := ⟨.hbm, 72, rfl⟩
abbrev main_call5_v9 : Ref sig .tc := ⟨.hbm, 73, rfl⟩
abbrev main_call5_v10 : Ref sig .tc := ⟨.hbm, 74, rfl⟩
abbrev main_call5_v11 : Ref sig .tc := ⟨.hbm, 75, rfl⟩
abbrev main_call5_v12 : Ref sig .tc := ⟨.hbm, 76, rfl⟩
abbrev main_call5_v13 : Ref sig .tc := ⟨.hbm, 77, rfl⟩
abbrev main_call5_v14 : Ref sig .tc := ⟨.hbm, 78, rfl⟩
abbrev main_v18 : Ref sig .tc := ⟨.hbm, 79, rfl⟩
abbrev main_c_7 : Ref sig .tc := ⟨.hbm, 80, rfl⟩
abbrev main_call6_v0 : Ref sig .tc := ⟨.hbm, 81, rfl⟩
abbrev main_call6_v1 : Ref sig .tc := ⟨.hbm, 82, rfl⟩
abbrev main_call6_v2 : Ref sig .tc := ⟨.hbm, 83, rfl⟩
abbrev main_call6_v3 : Ref sig .tc := ⟨.hbm, 84, rfl⟩
abbrev main_call6_v4 : Ref sig .tc := ⟨.hbm, 85, rfl⟩
abbrev main_call6_v5 : Ref sig .tc := ⟨.hbm, 86, rfl⟩
abbrev main_call6_v6 : Ref sig .tc := ⟨.hbm, 87, rfl⟩
abbrev main_call6_v7 : Ref sig .tc := ⟨.hbm, 88, rfl⟩
abbrev main_call6_c : Ref sig .tc := ⟨.hbm, 89, rfl⟩
abbrev main_call6_v8 : Ref sig .tc := ⟨.hbm, 90, rfl⟩
abbrev main_call6_v9 : Ref sig .tc := ⟨.hbm, 91, rfl⟩
abbrev main_call6_v10 : Ref sig .tc := ⟨.hbm, 92, rfl⟩
abbrev main_call6_c_0 : Ref sig .tc := ⟨.hbm, 93, rfl⟩
abbrev main_call6_v11 : Ref sig .tc := ⟨.hbm, 94, rfl⟩
abbrev main_call6_v12 : Ref sig .tc := ⟨.hbm, 95, rfl⟩
abbrev main_v19 : Ref sig .tc := ⟨.hbm, 96, rfl⟩
abbrev main_c_8 : Ref sig .tc := ⟨.hbm, 97, rfl⟩
abbrev main_call7_v0 : Ref sig .tc := ⟨.hbm, 98, rfl⟩
abbrev main_call7_c : Ref sig .tc := ⟨.hbm, 99, rfl⟩
abbrev main_call7_v1 : Ref sig .tc := ⟨.hbm, 100, rfl⟩
abbrev main_call7_c_0 : Ref sig .tc := ⟨.hbm, 101, rfl⟩
abbrev main_call7_v2 : Ref sig .tc := ⟨.hbm, 102, rfl⟩
abbrev main_call7_v3 : Ref sig .tc := ⟨.hbm, 103, rfl⟩
abbrev main_call7_v4 : Ref sig .tc := ⟨.hbm, 104, rfl⟩
abbrev main_call7_c_1 : Ref sig .tc := ⟨.hbm, 105, rfl⟩
abbrev main_call7_v5 : Ref sig .tc := ⟨.hbm, 106, rfl⟩
abbrev main_call7_v6 : Ref sig .tc := ⟨.hbm, 107, rfl⟩
abbrev main_call7_c_2 : Ref sig .tc := ⟨.hbm, 108, rfl⟩
abbrev main_call7_v7 : Ref sig .tc := ⟨.hbm, 109, rfl⟩
abbrev main_call7_v8 : Ref sig .tc := ⟨.hbm, 110, rfl⟩
abbrev main_call7_c_3 : Ref sig .tc := ⟨.hbm, 111, rfl⟩
abbrev main_call7_v9 : Ref sig .tc := ⟨.hbm, 112, rfl⟩
abbrev main_call7_v10 : Ref sig .tc := ⟨.hbm, 113, rfl⟩
abbrev main_call7_v11 : Ref sig .tc := ⟨.hbm, 114, rfl⟩
abbrev main_call7_v12 : Ref sig .tc := ⟨.hbm, 115, rfl⟩
abbrev main_call7_v13 : Ref sig .tc := ⟨.hbm, 116, rfl⟩
abbrev main_call7_v14 : Ref sig .tc := ⟨.hbm, 117, rfl⟩
abbrev main_v20 : Ref sig .tc := ⟨.hbm, 118, rfl⟩
abbrev main_c_9 : Ref sig .tc := ⟨.hbm, 119, rfl⟩
abbrev main_v21 : Ref sig .tc := ⟨.hbm, 120, rfl⟩
abbrev main_v22 : Ref sig .tc := ⟨.hbm, 121, rfl⟩
abbrev main_c_10 : Ref sig .tc := ⟨.hbm, 122, rfl⟩
abbrev main_v23 : Ref sig .tc := ⟨.hbm, 123, rfl⟩
abbrev main_v24 : Ref sig .tc := ⟨.hbm, 124, rfl⟩
abbrev main_v25 : Ref sig .tc := ⟨.hbm, 125, rfl⟩
abbrev main_c_11 : Ref sig .tc := ⟨.hbm, 126, rfl⟩
abbrev main_v26 : Ref sig .tc := ⟨.hbm, 127, rfl⟩
abbrev main_v27 : Ref sig .tc := ⟨.hbm, 128, rfl⟩
abbrev main_c_12 : Ref sig .tc := ⟨.hbm, 129, rfl⟩
abbrev main_v28 : Ref sig .tc := ⟨.hbm, 130, rfl⟩
abbrev main_v29 : Ref sig .tc := ⟨.hbm, 131, rfl⟩
abbrev main_v30 : Ref sig .tc := ⟨.hbm, 132, rfl⟩
abbrev main_v31 : Ref sig .tc := ⟨.hbm, 133, rfl⟩
abbrev main_v32 : Ref sig .tc := ⟨.hbm, 134, rfl⟩
abbrev main_v33 : Ref sig .tc := ⟨.hbm, 135, rfl⟩
abbrev main_v34 : Ref sig .tc := ⟨.hbm, 136, rfl⟩
abbrev main_v35 : Ref sig .tc := ⟨.hbm, 137, rfl⟩

abbrev nD : Nat := 1
abbrev τ : Topo := Topo.v7x

variable {F : FTy → Type} [FloatOps F]

class Facts₀ : Prop where
  bcast_S_S32x32 : S_.BroadcastsInDim S32x32 (![] : Fin 0 → Fin S32x32.rank)
  shapeCasts_S32x32_S1024 : S32x32.ShapeCasts S1024
  natLt_1_32 : 1 < 32
  bcast_S_S_ : S_.BroadcastsInDim S_ (![] : Fin 0 → Fin S_.rank)
  reduceWindows_S1024_S1024_w1024s1p1023_0 : S1024.ReduceWindows (![1024] : Fin 1 → Nat) ![1] ![1023] ![0] S1024
  h_S_ : 0 < S_.numel
  bcast_S_S496 : S_.BroadcastsInDim S496 (![] : Fin 0 → Fin S496.rank)
  bcast_S_S1024 : S_.BroadcastsInDim S1024 (![] : Fin 0 → Fin S1024.rank)
  bcast_S1024_S1024x1_0 : S1024.BroadcastsInDim S1024x1 (![0] : Fin 1 → Fin S1024x1.rank)
  reduceWindows_S496_S496_w496s1p495_0 : S496.ReduceWindows (![496] : Fin 1 → Nat) ![1] ![495] ![0] S496
  bcast_S496_S496x1_0 : S496.BroadcastsInDim S496x1 (![0] : Fin 1 → Fin S496x1.rank)
  concatenates_S496x1_S496x1_S496x2_d1 : Shape.Concatenates [S496x1, S496x1] S496x2 1
  bcast_S16384x496_S16384x496x1_0_1 : S16384x496.BroadcastsInDim S16384x496x1 (![0, 1] : Fin 2 → Fin S16384x496x1.rank)
  dot_S16384x32x64_S16384x32x64_S16384x32x32_2_2_1_1_0_0_wf : DotDims.WF S16384x32x64 S16384x32x64 S16384x32x32 [2] [2] [1] [1] [0] [0]
  scatter_S496_S1024x1_S1024_n_0_0_1_wf : ScatterDims.WF S496 S1024x1 S1024 [] [0] [0] 1
  gather_S16384x32x32_S496x2_S16384x496_0_12_n_n_12_1_1638411_wf : GatherDims.WF S16384x32x32 S496x2 S16384x496 [0] [1, 2] [] [1, 2] [] 1 ![16384, 1, 1]

variable [Facts₀]

def dot_S16384x32x64_S16384x32x64_S16384x32x32_2_2_1_1_0_0 : DotDims S16384x32x64 S16384x32x64 S16384x32x32 where
  lhsContracting := [2]
  rhsContracting := [2]
  lhsNonContracting := [1]
  rhsNonContracting := [1]
  lhsBatch := [0]
  rhsBatch := [0]
  wf := dot_S16384x32x64_S16384x32x64_S16384x32x32_2_2_1_1_0_0_wf
def scatter_S496_S1024x1_S1024_n_0_0_1 : ScatterDims S496 S1024x1 S1024 where
  updateWindowDims := []
  insertedWindowDims := [0]
  scatterDimsToOperandDims := [0]
  indexVectorDim := 1
  wf := scatter_S496_S1024x1_S1024_n_0_0_1_wf
def gather_S16384x32x32_S496x2_S16384x496_0_12_n_n_12_1_1638411 : GatherDims S16384x32x32 S496x2 S16384x496 where
  offsetDims := [0]
  collapsedSliceDims := [1, 2]
  operandBatchingDims := []
  startIndicesBatchingDims := []
  startIndexMap := [1, 2]
  indexVectorDim := 1
  sliceSizes := ![16384, 1, 1]
  wf := gather_S16384x32x32_S496x2_S16384x496_0_12_n_n_12_1_1638411_wf

class Facts : Prop extends Facts₀ where

variable [Facts]
-- ==== Proof.Spec.lean ====
/-
  What both programs compute, stated once over literal shapes and importing neither program.

  The Gram array of `x : [16384, 32, 64]` is `gram x [b, n, m] = ∑ d, x[b, n, d] · x[b, m, d]`, and the result keeps, for
  each batch `b`, its 496 entries strictly above the diagonal, in row-major order: the `k`-th kept pair `(n, m)`, `n < m`,
  is the `k`-th position `32·n + m` of the flattened 32 × 32 square at which `n < m` holds.

  The natural-number side of that enumeration is here too: `maskN` (is position `i` above the diagonal), `csN` (how many
  such positions lie at or before `j`: a running count), and `posN k` (how many positions have a running count of at most
  `k`), which for `k < 496` is the position of the `(k+1)`-th kept pair because the running count never decreases.
-/
import Idealize.ShloMosaic.PureOps.Ideal
import Idealize.ShloMosaic.Lib.ValueIdx

noncomputable section

namespace Cert.Spec

open Idealize.ShloMosaic Idealize.ShloMosaic.ValueIdx

abbrev SX : Shape := ⟨3, ![16384, 32, 64]⟩
abbrev SG : Shape := ⟨3, ![16384, 32, 32]⟩

/-- The batched Gram array at the ideal values: entry `[b, n, m]` is the inner product of rows `n` and `m` of batch `b`. -/
def gram (x : FVec Ideal SX .f32) : FVec Ideal SG .f32 :=
  fun j => ∑ d : Fin 64, x (ix3 (n0 := 16384) (n1 := 32) (n2 := 64) (j 0) (j 1) d)
                        * x (ix3 (n0 := 16384) (n1 := 32) (n2 := 64) (j 0) (j 2) d)

end Cert.Spec

end

namespace Cert.Spec

/-- Position `i` of the flattened 32 × 32 square lies strictly above the diagonal: row `i / 32` < column `i % 32`. -/
def maskN (i : ℕ) : ℕ := if i / 32 < i % 32 then 1 else 0

/-- The running count in closed form: the positions above the diagonal among `0 … j`. Row `r` holds `31 - r` of them,
    so the rows before row `r = j / 32` hold `31·r - r·(r-1)/2`, and row `r` itself contributes the columns `r+1 … j % 32`. -/
def csN (j : ℕ) : ℕ := 31 * (j / 32) - (j / 32) * (j / 32 - 1) / 2 + (j % 32 - j / 32)

/-- How many of the 1024 positions have a running count of at most `k`. -/
def posN (k : ℕ) : ℕ := ((List.range 1024).filter fun i => csN i ≤ k).length

end Cert.Spec
-- ==== Proof.KerGram.lean ====
/-
  What the kernel leaves in its output array: the Gram array of the argument.

  Each of the sixteen grid points loads one block of 1024 batches of the argument, forms for every batch the 32 × 32
  square of inner products of its rows (a batched product contracting the 64 columns, into a zero accumulator; at the
  ideal values the narrowing of the operands changes nothing), and stores the square block back. Point `t`'s blocks are
  the batches `1024·t … 1024·t + 1023` on both sides, so the blocks written tile the output array and every entry
  `[b, n, p]` ends at `∑ d, x[b, n, d] · x[b, p, d]`.
-/
import proofs.«111995_j20126216749638_1_alg».proof.Proof.Gen.KernelIdeal.Frame
import proofs.«111995_j20126216749638_1_alg».proof.Proof.Spec
import Idealize.ShloMosaic.PureOps.Ideal.Laws
import Idealize.ShloMosaic.Lib.ValueIdx
import Idealize.ShloMosaic.Lib.Pipeline.Value

noncomputable section

namespace Cert.KernelIdeal.KerGram

open Idealize.ShloMosaic Idealize.ShloMosaic.ValueIdx Idealize.ShloMosaic.TcCoe Idealize.SL.Sem Cert.KernelIdeal Cert.KernelIdeal.Gen

/-! ## The batched product at an entry -/

/-- The product's dimension record: batch axis 0, free axis 1, contracted axis 2, on both operands. -/
abbrev gramDims := dot_S1024x32x64_S1024x32x64_S1024x32x32_2_2_1_1_0_0

/-- The left operand is read at the result's batch, -/
theorem lhs_batch (j : S1024x32x32.Idx) (k : gramDims.contr.Idx) : (gramDims.lhsIdx j k 0).val = (j 0).val := rfl
/-- at the result's first row coordinate, -/
theorem lhs_row (j : S1024x32x32.Idx) (k : gramDims.contr.Idx) : (gramDims.lhsIdx j k 1).val = (j 1).val := rfl
/-- and at the contraction position. -/
theorem lhs_contr (j : S1024x32x32.Idx) (k : gramDims.contr.Idx) : (gramDims.lhsIdx j k 2).val = (k ⟨0, by decide⟩).val := rfl
/-- The right operand is read at the result's batch, -/
theorem rhs_batch (j : S1024x32x32.Idx) (k : gramDims.contr.Idx) : (gramDims.rhsIdx j k 0).val = (j 0).val := rfl
/-- at the result's second row coordinate, -/
theorem rhs_row (j : S1024x32x32.Idx) (k : gramDims.contr.Idx) : (gramDims.rhsIdx j k 1).val = (j 2).val := rfl
/-- and at the contraction position. -/
theorem rhs_contr (j : S1024x32x32.Idx) (k : gramDims.contr.Idx) : (gramDims.rhsIdx j k 2).val = (k ⟨0, by decide⟩).val := rfl

/-- The block's payload at entry `(b, n, p)`: the inner product of rows `n` and `p` of batch `b` of the loaded block.
    The sum over the one-axis contraction index is re-indexed by the column `d`. -/
theorem payload_entry (x0 : Vec Ideal S1024x32x64 .f32) (b : Fin 1024) (n p : Fin 32) :
    k0_pay1 x0 (ix3 b n p) = ∑ d : Fin 64, x0 (ix3 b n d) * x0 (ix3 b p d) := by
  unfold k0_pay1
  refine (Ideal.matmul_constant_zero_apply gramDims none _ _ (ix3 b n p)).trans ?_
  rw [← Equiv.sum_comp (contrEquiv1 gramDims 64 rfl rfl).symm]
  refine Finset.sum_congr rfl fun d _ => ?_
  have hd := contrEquiv1_symm_val gramDims 64 rfl rfl d
  have el : gramDims.lhsIdx (ix3 b n p) ((contrEquiv1 gramDims 64 rfl rfl).symm d) = ix3 b n d :=
    funext fun a => Fin.ext (by
      match a with
      | ⟨0, _⟩ => exact lhs_batch _ _
      | ⟨1, _⟩ => exact lhs_row _ _
      | ⟨2, _⟩ => exact (lhs_contr _ _).trans hd)
  have er : gramDims.rhsIdx (ix3 b n p) ((contrEquiv1 gramDims 64 rfl rfl).symm d) = ix3 b p d :=
    funext fun a => Fin.ext (by
      match a with
      | ⟨0, _⟩ => exact rhs_batch _ _
      | ⟨1, _⟩ => exact rhs_row _ _
      | ⟨2, _⟩ => exact (rhs_contr _ _).trans hd)
  rw [el, er]
  rfl

/-- A block whose batch `b` is batch `1024·T + b` of the array `X` has, as its payload at `j`, the Gram entry of `X`
    at the array index `i` with batch `1024·T + j₀` and the same pair of rows. -/
theorem payload_gram (X : FVec Ideal Cert.Spec.SX .f32) (x0 : Vec Ideal S1024x32x64 .f32) (T : ℕ)
    (hx : ∀ (b : Fin 1024) (B : Fin 16384) (n : Fin 32) (d : Fin 64), B.val = 1024 * T + b.val →
      x0 (ix3 b n d) = X (ix3 B n d))
    (j : S1024x32x32.Idx) (i : Cert.Spec.SG.Idx) (h0 : (i 0).val = 1024 * T + (j 0).val) (h1 : i 1 = j 1) (h2 : i 2 = j 2) :
    k0_pay1 x0 j = Cert.Spec.gram X i := by
  obtain ⟨b, n, p, rfl⟩ : ∃ (b : Fin 1024) (n p : Fin 32), j = ix3 b n p := ⟨j 0, j 1, j 2, eq_ix3 j⟩
  rw [payload_entry]
  unfold Cert.Spec.gram
  refine Finset.sum_congr rfl fun d _ => ?_
  rw [hx b (i 0) n d h0, hx b (i 0) p d h0, h1, h2]

/-! ## From the blocks to the array -/

variable (m : (ℓ : Loc nD τ sig) → Buf (Elt Ideal) ℓ)

theorem zero_offsets : (![0, 0, 0] : Fin 3 → Nat) = fun _ => 0 := funext fun a => by fin_cases a <;> rfl

/-- The grid's sixteen points: point `t` takes block `(t, 0, 0)` of the argument and writes block `(t, 0, 0)` of the output. -/
theorem block_of_point : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- The input block at point `t`, entry `(b, n, d)`, is the argument at batch `1024·t + b`: a block's coordinate on an
    axis is its block index times the block's extent plus the coordinate inside the block. -/
theorem in_block (c : Dev nD) (t : Fin cfg0.N) (b : Fin 1024) (B : Fin 16384) (n : Fin 32) (d : Fin 64)
    (hB : B.val = 1024 * t.val + b.val) :
    (iblk m c 0 t : Vec Ideal S1024x32x64 .f32) (ix3 b n d) = (V m c main_arg0 : S16384x32x64.Idx → Elt Ideal .f32) (ix3 B n d) := by
  obtain ⟨e0, e1, e2, -, -, -⟩ := block_of_point t
  unfold iblk
  rw [View.read_apply]
  show V m c main_arg0 _ = V m c main_arg0 _
  congr 1
  funext a
  apply Fin.ext
  match a with
  | ⟨0, _⟩ => show win0_0.index t (0 : Fin 3) * 1024 + 1 * b.val = B.val; rw [e0, hB]; omega
  | ⟨1, _⟩ => show win0_0.index t (1 : Fin 3) * 32 + 1 * n.val = n.val; rw [e1]; omega
  | ⟨2, _⟩ => show win0_0.index t (2 : Fin 3) * 64 + 1 * d.val = d.val; rw [e2]; omega

/-- What point `t` writes back is block `t` of the Gram array of the argument as the region finds it. -/
theorem written_block (c : Dev nD) (t : Fin cfg0.N) :
    (dats m 0 c).flushed 1 t = ((cfg0.win 1).blk t).view.read (Elt Ideal) (Cert.Spec.gram (V m c main_arg0)) := by
  show (cfg0.win 1).cut (grid0.coords t) ((dats m 0 c).after 1 t) = _
  rw [after0_1]
  unfold out0_1
  rw [View.canon_unit_zero zero_offsets]
  simp only [View.ld_unit_zero (S := S1024x32x64) zero_offsets]
  obtain ⟨-, -, -, e0, e1, e2⟩ := block_of_point t
  funext j
  show k0_pay1 (iblk m c 0 t) j = Cert.Spec.gram (V m c main_arg0) (((cfg0.win 1).blk t).view.emb j)
  refine payload_gram (V m c main_arg0) (iblk m c 0 t) t.val (fun b B n d hB => in_block m c t b B n d hB) j _ ?_ ?_ ?_
  · show win0_1.index t (0 : Fin 3) * 1024 + 1 * (j 0).val = _; rw [e0]; omega
  · apply Fin.ext; show win0_1.index t (1 : Fin 3) * 32 + 1 * (j 1).val = _; rw [e1]; omega
  · apply Fin.ext; show win0_1.index t (2 : Fin 3) * 32 + 1 * (j 2).val = _; rw [e2]; omega

/-- An index of the output array is in point `t`'s block iff each coordinate is in the block's range on its axis. -/
theorem mem_block (t : Fin cfg0.N) (i : S16384x32x32.Idx) :
    i ∈ ((cfg0.win 1).blk t).view.set ↔ ∀ a : Fin 3, win0_1.index t a * S1024x32x32.size a ≤ (i a).val ∧ (i a).val < win0_1.index t a * S1024x32x32.size a + S1024x32x32.size a := by
  show i ∈ ((View.whole main_v0).slice (win0_1.rect t)).set ↔ _
  rw [View.set_slice_whole, Rect.mem_set_unit]
  exact Iff.rfl

/-- Every index of the output array lies in the block of the point its batch divided by 1024 names. -/
theorem covered (i : S16384x32x32.Idx) : ∃ t : Fin cfg0.N, (cfg0.win 1).flush t = true ∧ i ∈ ((cfg0.win 1).blk t).view.set := by
  have hi0 : (i 0).val < 16384 := (i 0).isLt
  have hi1 : (i 1).val < 32 := (i 1).isLt
  have hi2 : (i 2).val < 32 := (i 2).isLt
  have hN : cfg0.N = 16 := N_0
  let t : Fin cfg0.N := ⟨(i 0).val / 1024, by rw [hN]; omega⟩
  obtain ⟨-, -, -, e0, e1, e2⟩ := block_of_point t
  have ht : t.val = (i 0).val / 1024 := rfl
  refine ⟨t, flush0_1 t, ?_⟩
  rw [mem_block]
  intro a
  match a with
  | ⟨0, _⟩ => show win0_1.index t (0 : Fin 3) * 1024 ≤ (i 0).val ∧ (i 0).val < win0_1.index t (0 : Fin 3) * 1024 + 1024; rw [e0, ht]; omega
  | ⟨1, _⟩ => show win0_1.index t (1 : Fin 3) * 32 ≤ (i 1).val ∧ (i 1).val < win0_1.index t (1 : Fin 3) * 32 + 32; rw [e1]; omega
  | ⟨2, _⟩ => show win0_1.index t (2 : Fin 3) * 32 ≤ (i 2).val ∧ (i 2).val < win0_1.index t (2 : Fin 3) * 32 + 32; rw [e2]; omega

/-- After the sixteen grid points the output array holds the Gram array of the argument as launched: point `t` writes
    batches `1024·t … 1024·t + 1023`, each entry the inner product of two rows of that batch. -/
theorem final (c : Dev nD) :
    (Gen.dats m 0 c).arrAt 1 cfg0.N = Cert.Spec.gram (m ((c.tc : Thread nD τ).loc main_arg0)) := by
  rw [← V_main_arg0 m c]
  exact (dats m 0 c).arrAt_eq_of_cover 1 (Cert.Spec.gram (V m c main_arg0)) (fun t _ => written_block m c t) covered

end Cert.KernelIdeal.KerGram

end
-- ==== Proof.KerDefs.lean ====
/-
  The kernel program's index pairs and result, named.

  The kernel program carries the 496 pairs above the diagonal as two literal tables (rows, columns), passes each through
  the wrap of a negative coordinate — with a literal all-false mask, so nothing is wrapped — and gathers the array its
  region leaves at those pairs.
-/
import proofs.«111995_j20126216749638_1_alg».proof.KernelIdeal

noncomputable section

namespace Cert.KernelIdeal.KerValue

open Idealize.ShloMosaic Cert.KernelIdeal
open Facts₀ Facts

variable {F : FTy → Type} [FloatOps F] [Facts]

/-- The literal table of rows, as a vector. -/
def litRows : IVec S496 32 := fun i => lit0 (S496.rowMajor i)
/-- The literal table of columns, as a vector. -/
def litCols : IVec S496 32 := fun i => lit1 (S496.rowMajor i)

/-- The index pairs: the two tables, each through the (vacuous) wrap, side by side. -/
def kerIdx : IVec S496x2 32 :=
  concatenate S496x2 1
    [⟨S496x1, broadcastInDim S496x1 ![0] bcast_S496_S496x1_0
        (select (constantI S496 1 0#1) (addi litRows (broadcastInDim S496 ![] bcast_S_S496 (constantI S_ 32 32#32))) litRows)⟩,
     ⟨S496x1, broadcastInDim S496x1 ![0] bcast_S496_S496x1_0
        (select (constantI S496 1 0#1) (addi litCols (broadcastInDim S496 ![] bcast_S_S496 (constantI S_ 32 32#32))) litCols)⟩]
    concatenates_S496x1_S496x1_S496x2_d1

/-- The result from the array the region leaves: gathered at the pairs, with a trailing unit axis. -/
def kerOut (G : FVec F S16384x32x32 .f32) : FVec F S16384x496x1 .f32 :=
  broadcastInDim S16384x496x1 ![0, 1] bcast_S16384x496_S16384x496x1_0_1
    (Host.gather gather_S16384x32x32_S496x2_S16384x496_0_12_n_n_12_1_1638411 G kerIdx)

end Cert.KernelIdeal.KerValue

end
-- ==== Proof.KerValue.lean ====
/-
  The kernel program's run with its result named.

  After the region the program's last lines start from contents in which the region's output array holds the Gram
  array of the argument and the four literal buffers hold what the first lines put there: the two tables of rows and
  columns and two all-false masks. Read at the result buffer, those last lines are exactly the wrap, the pairing, the
  gather and the trailing unit axis that `kerOut` names.
-/
import proofs.«111995_j20126216749638_1_alg».proof.Proof.KerGram
import proofs.«111995_j20126216749638_1_alg».proof.Proof.KerDefs

noncomputable section

namespace Cert.KernelIdeal.KerValue

open Idealize.ShloMosaic Idealize.ShloMosaic.ValueIdx Idealize.ShloMosaic.TcCoe Idealize.SL.Sem Cert.KernelIdeal Cert.KernelIdeal.Gen
open Facts₀ Facts

variable {F : FTy → Type} [FloatOps F]

section Tail

variable (m : (ℓ : Loc nD τ sig) → Buf (Elt Ideal) ℓ)

/-- The contents the lines after the region start from: the region's two arrays as the region leaves them, every other
    buffer as the lines before the region left it. -/
abbrev exitContents (c : Dev nD) : Valuation τ sig (Elt Ideal) :=
  Pipeline.withArrays (cfgs 0).spec c (V0 m c) (fun w => (dats m 0 c).arrAt w (cfgs 0).N)

/-- There the region's output array is the Gram array of the argument. -/
theorem exit_v0 (c : Dev nD) :
    exitContents m c (Proc.devRef .tc main_v0) = Cert.Spec.gram (m ((c.tc : Thread nD τ).loc main_arg0)) :=
  (Pipeline.withArrays_arr spec0 launch0.win.arr_inj c _ _ 1).trans (KerGram.final m c)

/-- The first literal buffer is no array of the region, so it still holds the table of rows. -/
theorem exit_c (c : Dev nD) : exitContents m c (Proc.devRef .tc main_c) = (litRows : IVec S496 32) := by
  unfold exitContents
  rw [Pipeline.withArrays_of_ne _ c _ _ main_c (by decide)]
  show StableHlo.after hostOps0 (fun b => m (c, b)) (Proc.devRef .tc main_c) = _
  after_results
  rfl

/-- Likewise the third holds the table of columns. -/
theorem exit_c_1 (c : Dev nD) : exitContents m c (Proc.devRef .tc main_c_1) = (litCols : IVec S496 32) := by
  unfold exitContents
  rw [Pipeline.withArrays_of_ne _ c _ _ main_c_1 (by decide)]
  show StableHlo.after hostOps0 (fun b => m (c, b)) (Proc.devRef .tc main_c_1) = _
  after_results
  rfl

/-- The second holds the all-false mask. -/
theorem exit_c_0 (c : Dev nD) : exitContents m c (Proc.devRef .tc main_c_0) = (constantI S496 1 0#1 : IVec S496 1) := by
  unfold exitContents
  rw [Pipeline.withArrays_of_ne _ c _ _ main_c_0 (by decide)]
  show StableHlo.after hostOps0 (fun b => m (c, b)) (Proc.devRef .tc main_c_0) = _
  after_results

/-- And so does the fourth. -/
theorem exit_c_2 (c : Dev nD) : exitContents m c (Proc.devRef .tc main_c_2) = (constantI S496 1 0#1 : IVec S496 1) := by
  unfold exitContents
  rw [Pipeline.withArrays_of_ne _ c _ _ main_c_2 (by decide)]
  show StableHlo.after hostOps0 (fun b => m (c, b)) (Proc.devRef .tc main_c_2) = _
  after_results

/-- What the lines after the region leave in the result buffer: each line's function applied to its operands'
    contents, down to the five buffers read above, is `kerOut` of the Gram array term for term. -/
theorem tail_v11 (c : Dev nD) :
    Pipeline.afterTail₀ cfgs (dats m) 0 (V0 m) [hostOps1] c main_v11
      = kerOut (Cert.Spec.gram (m ((c.tc : Thread nD τ).loc main_arg0))) := by
  unfold Pipeline.afterTail₀
  show StableHlo.after hostOps1 (exitContents m c) (Proc.devRef .tc main_v11) = _
  after_results
  rw [exit_v0, exit_c, exit_c_1, exit_c_0, exit_c_2]
  rfl

end Tail

/-- Every weakly fair execution of the kernel program at the ideal values ends with its result at `kerOut` of the Gram
    array of the argument, the argument unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v11) = kerOut (Cert.Spec.gram (m ((c.tc : Thread nD τ).loc main_arg0)))
      ∧ r.2.mem ((c.tc : Thread nD τ).loc main_arg0) = m ((c.tc : Thread nD τ).loc main_arg0) :=
  -- the result buffer is unscoped and no array of the region, so it ends as the last lines leave it; the argument is
  -- the region's input array, which ends as launched
  (θ_run defs _ _).mono (fun r h c =>
    ⟨((h c).2 main_v11 (Pipeline.mem_restRefs_of main_v11 rfl (by decide))).trans (tail_v11 m c),
      ((h c).1 0).trans (((dats m 0 c).arrAt_in 0 rfl _).trans ((A_eq m c 0).trans (V_main_arg0 m c)))⟩)
    (Gen.run_main m ρ)

end Cert.KernelIdeal.KerValue

end
-- ==== Proof.TriDefs.lean ====
/-
  The reference's index computation, named stage by stage.

  The reference does not carry the 496 pairs above the diagonal as a table: it computes them on the device from nothing
  — a 32 × 32 square of ones with its lower triangle zeroed, "is it non-zero" as a mask, the mask's running count over the
  flattened square, a histogram of the running counts (each position adds one to the bucket of its count), the histogram's
  running count (the position of the `k`-th kept entry), and that position split into row and column by a floored division
  and a remainder by 32. Each definition below is one such stage, written with the operations of the printed program so that
  the program's run is these terms by unfolding; none depends on the input.
-/
import proofs.«111995_j20126216749638_1_alg».proof.ReferenceIdeal

noncomputable section

namespace Cert.ReferenceIdeal.Tri

open Idealize.ShloMosaic Cert.ReferenceIdeal
open Facts₀ Facts

variable {F : FTy → Type} [FloatOps F] [Facts]

/-- The scalar zero word, as the running sums take it. -/
def zero0 : IVec S_ 32 := broadcastInDim S_ ![] bcast_S_S_ (constantI S_ 32 0#32)

/-- A square of ones with the entries on and below the diagonal (row ≥ column) replaced by zero. -/
def triuF : FVec F S32x32 .f32 :=
  select (cmpi .sge (addi (iotaInDim S32x32 32 0) (broadcastInDim S32x32 ![] bcast_S_S32x32 (constantI S_ 32 0#32))) (iotaInDim S32x32 32 1))
    (broadcastInDim S32x32 ![] bcast_S_S32x32 (constant S_ .f32 0x00000000#32))
    (broadcastInDim S32x32 ![] bcast_S_S32x32 (constant S_ .f32 0x3F800000#32))

/-- Where that square is not zero. -/
def maskB : IVec S32x32 1 :=
  cmpf .une (triuF (F := F)) (broadcastInDim S32x32 ![] bcast_S_S32x32 (constant S_ .f32 0x00000000#32))

/-- The mask flattened row-major and widened to words. -/
def maskW : IVec S1024 32 := extui 32 (shapeCast S1024 (maskB (F := F)) shapeCasts_S32x32_S1024) natLt_1_32

/-- Its running count: a window of 1024 padded 1023 low. -/
def cs : IVec S1024 32 :=
  Host.reduceWindow IntOp.addi ![1024] ![1] ![1023] ![0] (maskW (F := F)) zero0 reduceWindows_S1024_S1024_w1024s1p1023_0 h_S_

/-- Clipped below at zero. -/
def csClip : IVec S1024 32 := maxsi (broadcastInDim S1024 ![] bcast_S_S1024 (id (constantI S_ 32 0#32))) (cs (F := F))

/-- A negative index counted from the end (none is). -/
def csIdx : IVec S1024 32 :=
  select (cmpi .slt (csClip (F := F)) (broadcastInDim S1024 ![] bcast_S_S1024 (constantI S_ 32 0#32)))
    (addi (csClip (F := F)) (broadcastInDim S1024 ![] bcast_S_S1024 (constantI S_ 32 496#32))) (csClip (F := F))

/-- The histogram: bucket `v` counts the positions whose running count is `v` (a count of 496 falls outside and is dropped). -/
def counts : IVec S496 32 :=
  Host.scatter scatter_S496_S1024x1_S1024_n_0_0_1 IntOp.addi (broadcastInDim S496 ![] bcast_S_S496 (constantI S_ 32 0#32))
    (broadcastInDim S1024x1 ![0] bcast_S1024_S1024x1_0 (csIdx (F := F))) (broadcastInDim S1024 ![] bcast_S_S1024 (constantI S_ 32 1#32))

/-- The histogram's running count: the flat position of the `k`-th kept entry. -/
def flat : IVec S496 32 :=
  Host.reduceWindow IntOp.addi ![496] ![1] ![495] ![0] (counts (F := F)) zero0 reduceWindows_S496_S496_w496s1p495_0 h_S_

/-- The floored quotient as the program lowers it: the truncated quotient, less one where the signs differ and the
    remainder is not zero. -/
def fdiv (x : IVec S496 32) (d : IVec S_ 32) : IVec S496 32 :=
  select (andi (cmpi .ne (signi x) (broadcastInDim S496 ![] bcast_S_S496 (signi d)))
               (cmpi .ne (Host.remsi x (broadcastInDim S496 ![] bcast_S_S496 d)) (broadcastInDim S496 ![] bcast_S_S496 (constantI S_ 32 0#32))))
    (subi (Host.divsi x (broadcastInDim S496 ![] bcast_S_S496 d)) (broadcastInDim S496 ![] bcast_S_S496 (constantI S_ 32 1#32)))
    (Host.divsi x (broadcastInDim S496 ![] bcast_S_S496 d))

/-- The divisor the remainder really uses: one in place of zero. -/
def remDiv (d : IVec S_ 32) : IVec S_ 32 := select (cmpi .eq (id d) (constantI S_ 32 0#32)) (constantI S_ 32 1#32) (id d)

/-- The truncated remainder by that divisor. -/
def remT (x : IVec S496 32) (d : IVec S_ 32) : IVec S496 32 := Host.remsi x (broadcastInDim S496 ![] bcast_S_S496 (remDiv d))

/-- The floored remainder as the program lowers it: the truncated one, plus the divisor where it is not zero and its
    sign differs from the divisor's. -/
def rem (x : IVec S496 32) (d : IVec S_ 32) : IVec S496 32 :=
  select (andi (cmpi .ne (cmpi .slt (remT x d) (broadcastInDim S496 ![] bcast_S_S496 (constantI S_ 32 0#32)))
                         (broadcastInDim S496 ![] bcast_S_S496 (cmpi .slt (remDiv d) (constantI S_ 32 0#32))))
               (cmpi .ne (remT x d) (broadcastInDim S496 ![] bcast_S_S496 (constantI S_ 32 0#32))))
    (addi (remT x d) (broadcastInDim S496 ![] bcast_S_S496 (remDiv d))) (remT x d)

/-- A negative coordinate counted from the end of an axis of 32 (none is). -/
def norm32 (r : IVec S496 32) : IVec S496 32 :=
  select (cmpi .slt r (broadcastInDim S496 ![] bcast_S_S496 (constantI S_ 32 0#32)))
    (addi r (broadcastInDim S496 ![] bcast_S_S496 (constantI S_ 32 32#32))) r

/-- The row of the `k`-th kept entry. -/
def rows : IVec S496 32 := norm32 (rem (fdiv (flat (F := F)) (constantI S_ 32 32#32)) (constantI S_ 32 32#32))
/-- Its column. -/
def cols : IVec S496 32 := norm32 (rem (fdiv (flat (F := F)) (constantI S_ 32 1#32)) (constantI S_ 32 32#32))

/-- The index pairs, one row per kept entry. -/
def refIdx : IVec S496x2 32 :=
  concatenate S496x2 1 [⟨S496x1, broadcastInDim S496x1 ![0] bcast_S496_S496x1_0 (rows (F := F))⟩,
                        ⟨S496x1, broadcastInDim S496x1 ![0] bcast_S496_S496x1_0 (cols (F := F))⟩] concatenates_S496x1_S496x1_S496x2_d1

/-- The reference's result as a function of its argument: the Gram array gathered at the pairs, with a trailing unit axis. -/
def refOut (x : FVec F S16384x32x64 .f32) : FVec F S16384x496x1 .f32 :=
  broadcastInDim S16384x496x1 ![0, 1] bcast_S16384x496_S16384x496x1_0_1
    (Host.gather gather_S16384x32x32_S496x2_S16384x496_0_12_n_n_12_1_1638411
      (Host.dotGeneral dot_S16384x32x64_S16384x32x64_S16384x32x32_2_2_1_1_0_0 none x x) (refIdx (F := F)))

end Cert.ReferenceIdeal.Tri

end
-- ==== Proof.RefRun.lean ====
/-
  The reference program's run.

  The program is a straight line once each call is replaced by the callee's body over that call's buffers. The line is
  cut into nine consecutive stretches; for each, what it leaves in its result buffer is read off as a function of the
  contents it starts from, and what it does not write it keeps. Chaining the nine gives the result buffer at
  "Tri.refOut" of the argument, and the argument where it was.
-/
import proofs.«111995_j20126216749638_1_alg».proof.Proof.TriDefs
import proofs.«111995_j20126216749638_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations, stretch by stretch -/

/-- The Gram product of the argument with itself. -/
abbrev seg0 : List (HloOp τ sig (Elt F)) :=
  [ binary main_arg0 main_arg0 main_v0 ((fun l r => Host.dotGeneral dot_S16384x32x64_S16384x32x64_S16384x32x32_2_2_1_1_0_0 none l r) : (⟨S16384x32x64, .f32⟩ : BufTy).Contents (Elt F) → (⟨S16384x32x64, .f32⟩ : BufTy).Contents (Elt F) → (⟨S16384x32x32, .f32⟩ : BufTy).Contents (Elt F)) ]

/-- The square of ones, its strict upper triangle kept ("triu" over "main_call0"), the mask of what is left, and the
    mask's running count ("cumsum" over "main_call1", which calls "cumsum_0" over "main_call1.call0"). -/
abbrev seg1 : List (HloOp τ sig (Elt F)) :=
  [ nullary main_cst (constant S_ .f32 0x3F800000#32),
    unary main_cst main_v1 (broadcastInDim S32x32 ![] bcast_S_S32x32 : (⟨S_, .f32⟩ : BufTy).Contents (Elt F) → (⟨S32x32, .f32⟩ : BufTy).Contents (Elt F)),
    TRef.nullary main_call0.v0 (iotaInDim S32x32 32 0),
    TRef.nullary main_call0.c (constantI S_ 32 0#32),
    TRef.unary main_call0.c main_call0.v1 (broadcastInDim S32x32 ![] bcast_S_S32x32),
    TRef.binary main_call0.v0 main_call0.v1 main_call0.v2 addi,
    TRef.nullary main_call0.v3 (iotaInDim S32x32 32 1),
    TRef.binary main_call0.v2 main_call0.v3 main_call0.v4 (cmpi .sge),
    TRef.nullary main_call0.cst (constant S_ .f32 0x00000000#32),
    TRef.unary main_call0.cst main_call0.v5 (broadcastInDim S32x32 ![] bcast_S_S32x32),
    TRef.ternary main_call0.v4 main_call0.v5 (.of main_v1 : TRef sig ⟨S32x32, .f32⟩) main_call0.v6 select,
    nullary main_cst_0 (constant S_ .f32 0x00000000#32),
    unary main_cst_0 main_v3 (broadcastInDim S32x32 ![] bcast_S_S32x32 : (⟨S_, .f32⟩ : BufTy).Contents (Elt F) → (⟨S32x32, .f32⟩ : BufTy).Contents (Elt F)),
    binary main_v2 main_v3 main_v4 (cmpf .une : (⟨S32x32, .f32⟩ : BufTy).Contents (Elt F) → (⟨S32x32, .f32⟩ : BufTy).Contents (Elt F) → (⟨S32x32, .i1⟩ : BufTy).Contents (Elt F)),
    TRef.reshape (.of main_v4 : TRef sig ⟨S32x32, .i1⟩) main_call1.v0 rfl shapeCasts_S32x32_S1024,
    TRef.unary main_call1.v0 main_call1.v1 (extui 32 · natLt_1_32),
    TRef.nullary main_call1.call0.c (constantI S_ 32 0#32),
    TRef.unary main_call1.call0.c main_call1.call0.v0 (broadcastInDim S_ ![] bcast_S_S_),
    TRef.binary main_call1.v1 main_call1.call0.v0 main_call1.call0.v1 (fun x v => Host.reduceWindow IntOp.addi ![1024] ![1] ![1023] ![0] x v reduceWindows_S1024_S1024_w1024s1p1023_0 h_S_) ]

/-- The running count clipped below at zero ("clip" over "main_call2"), a negative one counted from the end, and the
    histogram of the counts by a scatter of ones. -/
abbrev seg2 : List (HloOp τ sig (Elt F)) :=
  [ nullary main_c (constantI S_ 32 0#32),
    unary main_c main_v6 (broadcastInDim S496 ![] bcast_S_S496 : (⟨S_, .i32⟩ : BufTy).Contents (Elt F) → (⟨S496, .i32⟩ : BufTy).Contents (Elt F)),
    nullary main_c_1 (constantI S_ 32 0#32),
    TRef.unary (.of main_c_1 : TRef sig ⟨S_, .i32⟩) main_call2.v0 id,
    TRef.unary main_call2.v0 main_call2.v1 (broadcastInDim S1024 ![] bcast_S_S1024),
    TRef.binary main_call2.v1 (.of main_v5 : TRef sig ⟨S1024, .i32⟩) main_call2.v2 maxsi,
    nullary main_c_2 (constantI S_ 32 0#32),
    unary main_c_2 main_v8 (broadcastInDim S1024 ![] bcast_S_S1024 : (⟨S_, .i32⟩ : BufTy).Contents (Elt F) → (⟨S1024, .i32⟩ : BufTy).Contents (Elt F)),
    binary main_v7 main_v8 main_v9 (cmpi .slt : (⟨S1024, .i32⟩ : BufTy).Contents (Elt F) → (⟨S1024, .i32⟩ : BufTy).Contents (Elt F) → (⟨S1024, .i1⟩ : BufTy).Contents (Elt F)),
    nullary main_c_3 (constantI S_ 32 496#32),
    unary main_c_3 main_v10 (broadcastInDim S1024 ![] bcast_S_S1024 : (⟨S_, .i32⟩ : BufTy).Contents (Elt F) → (⟨S1024, .i32⟩ : BufTy).Contents (Elt F)),
    binary main_v7 main_v10 main_v11 (addi : (⟨S1024, .i32⟩ : BufTy).Contents (Elt F) → (⟨S1024, .i32⟩ : BufTy).Contents (Elt F) → (⟨S1024, .i32⟩ : BufTy).Contents (Elt F)),
    ternary main_v9 main_v11 main_v7 main_v12 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v12 main_v13 (broadcastInDim S1024x1 ![0] bcast_S1024_S1024x1_0 : (⟨S1024, .i32⟩ : BufTy).Contents (Elt F) → (⟨S1024x1, .i32⟩ : BufTy).Contents (Elt F)),
    nullary main_c_4 (constantI S_ 32 1#32),
    unary main_c_4 main_v14 (broadcastInDim S1024 ![] bcast_S_S1024 : (⟨S_, .i32⟩ : BufTy).Contents (Elt F) → (⟨S1024, .i32⟩ : BufTy).Contents (Elt F)),
    ternary main_v6 main_v13 main_v14 main_v15 ((fun x i u => Host.scatter scatter_S496_S1024x1_S1024_n_0_0_1 IntOp.addi x i u) : (⟨S496, .i32⟩ : BufTy).Contents (Elt F) → (⟨S1024x1, .i32⟩ : BufTy).Contents (Elt F) → (⟨S1024, .i32⟩ : BufTy).Contents (Elt F) → (⟨S496, .i32⟩ : BufTy).Contents (Elt F)) ]

/-- The histogram's running count ("cumsum_1" over "main_call3", which calls "cumsum_2" over "main_call3.call0"). -/
abbrev seg3 : List (HloOp τ sig (Elt F)) :=
  [ TRef.nullary main_call3.call0.c (constantI S_ 32 0#32),
    TRef.unary main_call3.call0.c main_call3.call0.v0 (broadcastInDim S_ ![] bcast_S_S_),
    TRef.binary (.of main_v15 : TRef sig ⟨S496, .i32⟩) main_call3.call0.v0 main_call3.call0.v1 (fun x v => Host.reduceWindow IntOp.addi ![496] ![1] ![495] ![0] x v reduceWindows_S496_S496_w496s1p495_0 h_S_) ]

/-- The floored quotient of the flat position by 32 ("floor_divide" over "main_call4", its "_where" over
    "main_call4.call0"). -/
abbrev seg4 : List (HloOp τ sig (Elt F)) :=
  [ nullary main_c_5 (constantI S_ 32 32#32),
    TRef.unary (.of main_c_5 : TRef sig ⟨S_, .i32⟩) main_call4.v0 (broadcastInDim S496 ![] bcast_S_S496),
    TRef.binary (.of main_v16 : TRef sig ⟨S496, .i32⟩) main_call4.v0 main_call4.v1 Host.divsi,
    TRef.unary (.of main_v16 : TRef sig ⟨S496, .i32⟩) main_call4.v2 signi,
    TRef.unary (.of main_c_5 : TRef sig ⟨S_, .i32⟩) main_call4.v3 signi,
    TRef.unary main_call4.v3 main_call4.v4 (broadcastInDim S496 ![] bcast_S_S496),
    TRef.binary main_call4.v2 main_call4.v4 main_call4.v5 (cmpi .ne),
    TRef.unary (.of main_c_5 : TRef sig ⟨S_, .i32⟩) main_call4.v6 (broadcastInDim S496 ![] bcast_S_S496),
    TRef.binary (.of main_v16 : TRef sig ⟨S496, .i32⟩) main_call4.v6 main_call4.v7 Host.remsi,
    TRef.nullary main_call4.c (constantI S_ 32 0#32),
    TRef.unary main_call4.c main_call4.v8 (broadcastInDim S496 ![] bcast_S_S496),
    TRef.binary main_call4.v7 main_call4.v8 main_call4.v9 (cmpi .ne),
    TRef.binary main_call4.v5 main_call4.v9 main_call4.v10 andi,
    TRef.nullary main_call4.c_0 (constantI S_ 32 1#32),
    TRef.unary main_call4.c_0 main_call4.v11 (broadcastInDim S496 ![] bcast_S_S496),
    TRef.binary main_call4.v1 main_call4.v11 main_call4.v12 subi,
    TRef.ternary main_call4.v10 main_call4.v12 main_call4.v1 main_call4.call0.v0 select ]

/-- The floored remainder of that quotient by 32 ("remainder" over "main_call5", its "_where_3" over
    "main_call5.call0"). -/
abbrev seg5 : List (HloOp τ sig (Elt F)) :=
  [ nullary main_c_6 (constantI S_ 32 32#32),
    TRef.unary (.of main_c_6 : TRef sig ⟨S_, .i32⟩) main_call5.v0 id,
    TRef.nullary main_call5.c (constantI S_ 32 0#32),
    TRef.binary main_call5.v0 main_call5.c main_call5.v1 (cmpi .eq),
    TRef.nullary main_call5.c_0 (constantI S_ 32 1#32),
    TRef.ternary main_call5.v1 main_call5.c_0 main_call5.v0 main_call5.call0.v0 select,
    TRef.unary main_call5.call0.v0 main_call5.v3 (broadcastInDim S496 ![] bcast_S_S496),
    TRef.binary (.of main_v17 : TRef sig ⟨S496, .i32⟩) main_call5.v3 main_call5.v4 Host.remsi,
    TRef.nullary main_call5.c_1 (constantI S_ 32 0#32),
    TRef.unary main_call5.c_1 main_call5.v5 (broadcastInDim S496 ![] bcast_S_S496),
    TRef.binary main_call5.v4 main_call5.v5 main_call5.v6 (cmpi .ne),
    TRef.nullary main_call5.c_2 (constantI S_ 32 0#32),
    TRef.unary main_call5.c_2 main_call5.v7 (broadcastInDim S496 ![] bcast_S_S496),
    TRef.binary main_call5.v4 main_call5.v7 main_call5.v8 (cmpi .slt),
    TRef.nullary main_call5.c_3 (constantI S_ 32 0#32),
    TRef.binary main_call5.call0.v0 main_call5.c_3 main_call5.v9 (cmpi .slt),
    TRef.unary main_call5.v9 main_call5.v10 (broadcastInDim S496 ![] bcast_S_S496),
    TRef.binary main_call5.v8 main_call5.v10 main_call5.v11 (cmpi .ne),
    TRef.binary main_call5.v11 main_call5.v6 main_call5.v12 andi,
    TRef.unary main_call5.call0.v0 main_call5.v13 (broadcastInDim S496 ![] bcast_S_S496),
    TRef.binary main_call5.v4 main_call5.v13 main_call5.v14 addi,
    TRef.ternary main_call5.v12 main_call5.v14 main_call5.v4 main_call5.v15 select ]

/-- The floored quotient of the flat position by 1 ("floor_divide" over "main_call6", its "_where" over
    "main_call6.call0"). -/
abbrev seg6 : List (HloOp τ sig (Elt F)) :=
  [ nullary main_c_7 (constantI S_ 32 1#32),
    TRef.unary (.of main_c_7 : TRef sig ⟨S_, .i32⟩) main_call6.v0 (broadcastInDim S496 ![] bcast_S_S496),
    TRef.binary (.of main_v16 : TRef sig ⟨S496, .i32⟩) main_call6.v0 main_call6.v1 Host.divsi,
    TRef.unary (.of main_v16 : TRef sig ⟨S496, .i32⟩) main_call6.v2 signi,
    TRef.unary (.of main_c_7 : TRef sig ⟨S_, .i32⟩) main_call6.v3 signi,
    TRef.unary main_call6.v3 main_call6.v4 (broadcastInDim S496 ![] bcast_S_S496),
    TRef.binary main_call6.v2 main_call6.v4 main_call6.v5 (cmpi .ne),
    TRef.unary (.of main_c_7 : TRef sig ⟨S_, .i32⟩) main_call6.v6 (broadcastInDim S496 ![] bcast_S_S496),
    TRef.binary (.of main_v16 : TRef sig ⟨S496, .i32⟩) main_call6.v6 main_call6.v7 Host.remsi,
    TRef.nullary main_call6.c (constantI S_ 32 0#32),
    TRef.unary main_call6.c main_call6.v8 (broadcastInDim S496 ![] bcast_S_S496),
    TRef.binary main_call6.v7 main_call6.v8 main_call6.v9 (cmpi .ne),
    TRef.binary main_call6.v5 main_call6.v9 main_call6.v10 andi,
    TRef.nullary main_call6.c_0 (constantI S_ 32 1#32),
    TRef.unary main_call6.c_0 main_call6.v11 (broadcastInDim S496 ![] bcast_S_S496),
    TRef.binary main_call6.v1 main_call6.v11 main_call6.v12 subi,
    TRef.ternary main_call6.v10 main_call6.v12 main_call6.v1 main_call6.call0.v0 select ]

/-- The floored remainder of that quotient by 32 ("remainder" over "main_call7", its "_where_3" over
    "main_call7.call0"). -/
abbrev seg7 : List (HloOp τ sig (Elt F)) :=
  [ nullary main_c_8 (constantI S_ 32 32#32),
    TRef.unary (.of main_c_8 : TRef sig ⟨S_, .i32⟩) main_call7.v0 id,
    TRef.nullary main_call7.c (constantI S_ 32 0#32),
    TRef.binary main_call7.v0 main_call7.c main_call7.v1 (cmpi .eq),
    TRef.nullary main_call7.c_0 (constantI S_ 32 1#32),
    TRef.ternary main_call7.v1 main_call7.c_0 main_call7.v0 main_call7.call0.v0 select,
    TRef.unary main_call7.call0.v0 main_call7.v3 (broadcastInDim S496 ![] bcast_S_S496),
    TRef.binary (.of main_v19 : TRef sig ⟨S496, .i32⟩) main_call7.v3 main_call7.v4 Host.remsi,
    TRef.nullary main_call7.c_1 (constantI S_ 32 0#32),
    TRef.unary main_call7.c_1 main_call7.v5 (broadcastInDim S496 ![] bcast_S_S496),
    TRef.binary main_call7.v4 main_call7.v5 main_call7.v6 (cmpi .ne),
    TRef.nullary main_call7.c_2 (constantI S_ 32 0#32),
    TRef.unary main_call7.c_2 main_call7.v7 (broadcastInDim S496 ![] bcast_S_S496),
    TRef.binary main_call7.v4 main_call7.v7 main_call7.v8 (cmpi .slt),
    TRef.nullary main_call7.c_3 (constantI S_ 32 0#32),
    TRef.binary main_call7.call0.v0 main_call7.c_3 main_call7.v9 (cmpi .slt),
    TRef.unary main_call7.v9 main_call7.v10 (broadcastInDim S496 ![] bcast_S_S496),
    TRef.binary main_call7.v8 main_call7.v10 main_call7.v11 (cmpi .ne),
    TRef.binary main_call7.v11 main_call7.v6 main_call7.v12 andi,
    TRef.unary main_call7.call0.v0 main_call7.v13 (broadcastInDim S496 ![] bcast_S_S496),
    TRef.binary main_call7.v4 main_call7.v13 main_call7.v14 addi,
    TRef.ternary main_call7.v12 main_call7.v14 main_call7.v4 main_call7.v15 select ]

/-- Each coordinate, a negative one counted from the end of its axis; the two as the columns of an index table; the
    Gram array gathered at the table's rows; a trailing unit axis. -/
abbrev seg8 : List (HloOp τ sig (Elt F)) :=
  [ nullary main_c_9 (constantI S_ 32 0#32),
    unary main_c_9 main_v21 (broadcastInDim S496 ![] bcast_S_S496 : (⟨S_, .i32⟩ : BufTy).Contents (Elt F) → (⟨S496, .i32⟩ : BufTy).Contents (Elt F)),
    binary main_v18 main_v21 main_v22 (cmpi .slt : (⟨S496, .i32⟩ : BufTy).Contents (Elt F) → (⟨S496, .i32⟩ : BufTy).Contents (Elt F) → (⟨S496, .i1⟩ : BufTy).Contents (Elt F)),
    nullary main_c_10 (constantI S_ 32 32#32),
    unary main_c_10 main_v23 (broadcastInDim S496 ![] bcast_S_S496 : (⟨S_, .i32⟩ : BufTy).Contents (Elt F) → (⟨S496, .i32⟩ : BufTy).Contents (Elt F)),
    binary main_v18 main_v23 main_v24 (addi : (⟨S496, .i32⟩ : BufTy).Contents (Elt F) → (⟨S496, .i32⟩ : BufTy).Contents (Elt F) → (⟨S496, .i32⟩ : BufTy).Contents (Elt F)),
    ternary main_v22 main_v24 main_v18 main_v25 (select : (⟨S496, .i1⟩ : BufTy).Contents (Elt F) → (⟨S496, .i32⟩ : BufTy).Contents (Elt F) → (⟨S496, .i32⟩ : BufTy).Contents (Elt F) → (⟨S496, .i32⟩ : BufTy).Contents (Elt F)),
    nullary main_c_11 (constantI S_ 32 0#32),
    unary main_c_11 main_v26 (broadcastInDim S496 ![] bcast_S_S496 : (⟨S_, .i32⟩ : BufTy).Contents (Elt F) → (⟨S496, .i32⟩ : BufTy).Contents (Elt F)),
    binary main_v20 main_v26 main_v27 (cmpi .slt : (⟨S496, .i32⟩ : BufTy).Contents (Elt F) → (⟨S496, .i32⟩ : BufTy).Contents (Elt F) → (⟨S496, .i1⟩ : BufTy).Contents (Elt F)),
    nullary main_c_12 (constantI S_ 32 32#32),
    unary main_c_12 main_v28 (broadcastInDim S496 ![] bcast_S_S496 : (⟨S_, .i32⟩ : BufTy).Contents (Elt F) → (⟨S496, .i32⟩ : BufTy).Contents (Elt F)),
    binary main_v20 main_v28 main_v29 (addi : (⟨S496, .i32⟩ : BufTy).Contents (Elt F) → (⟨S496, .i32⟩ : BufTy).Contents (Elt F) → (⟨S496, .i32⟩ : BufTy).Contents (Elt F)),
    ternary main_v27 main_v29 main_v20 main_v30 (select : (⟨S496, .i1⟩ : BufTy).Contents (Elt F) → (⟨S496, .i32⟩ : BufTy).Contents (Elt F) → (⟨S496, .i32⟩ : BufTy).Contents (Elt F) → (⟨S496, .i32⟩ : BufTy).Contents (Elt F)),
    unary main_v25 main_v31 (broadcastInDim S496x1 ![0] bcast_S496_S496x1_0 : (⟨S496, .i32⟩ : BufTy).Contents (Elt F) → (⟨S496x1, .i32⟩ : BufTy).Contents (Elt F)),
    unary main_v30 main_v32 (broadcastInDim S496x1 ![0] bcast_S496_S496x1_0 : (⟨S496, .i32⟩ : BufTy).Contents (Elt F) → (⟨S496x1, .i32⟩ : BufTy).Contents (Elt F)),
    binary main_v31 main_v32 main_v33 ((fun a b => concatenate S496x2 1 [⟨S496x1, a⟩, ⟨S496x1, b⟩] concatenates_S496x1_S496x1_S496x2_d1) : (⟨S496x1, .i32⟩ : BufTy).Contents (Elt F) → (⟨S496x1, .i32⟩ : BufTy).Contents (Elt F) → (⟨S496x2, .i32⟩ : BufTy).Contents (Elt F)),
    binary main_v0 main_v33 main_v34 ((fun x i => Host.gather gather_S16384x32x32_S496x2_S16384x496_0_12_n_n_12_1_1638411 x i) : (⟨S16384x32x32, .f32⟩ : BufTy).Contents (Elt F) → (⟨S496x2, .i32⟩ : BufTy).Contents (Elt F) → (⟨S16384x496, .f32⟩ : BufTy).Contents (Elt F)),
    unary main_v34 main_v35 (broadcastInDim S16384x496x1 ![0, 1] bcast_S16384x496_S16384x496x1_0_1 : (⟨S16384x496, .f32⟩ : BufTy).Contents (Elt F) → (⟨S16384x496x1, .f32⟩ : BufTy).Contents (Elt F)) ]

/-- @main's operations in order, each call replaced by the callee's operations over that call's buffers. -/
abbrev ops : List (HloOp τ sig (Elt F)) :=
  seg0 ++ (seg1 ++ (seg2 ++ (seg3 ++ (seg4 ++ (seg5 ++ (seg6 ++ (seg7 ++ seg8)))))))

/-! ## The program is that line -/

/-- The contents after two stretches in a row: the second run from what the first leaves. -/
theorem after_app (a b : List (HloOp τ sig (Elt F))) (V : Valuation τ sig (Elt F)) :
    after (a ++ b) V = after b (after a V) := by
  induction a generalizing V with
  | nil => rfl
  | cons op a ih => rw [List.cons_append, after_cons, after_cons, ih]

set_option maxRecDepth 8192 in
/-- @main is the line: the callees' definitions unfolded at their calls and the records at their fields, both sides are
    one chain of steps once sequencing is reassociated. -/
theorem main_eq (c : Dev nD) : main (F := F) c = seq ops := by
  simp only [main, fn_triu.body, fn_cumsum.body, fn_cumsum_0.body, fn_clip.body, fn_cumsum_1.body, fn_cumsum_2.body,
    fn_floor_divide.body, fn_where.body, fn_remainder.body, fn_where_3.body, ops, seg0, seg1, seg2, seg3, seg4, seg5, seg6, seg7, seg8,
    seq_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-! ## Every operation works on TensorCore buffers -/

theorem seg0_sub : (seg0 : List (HloOp τ sig (Elt F))).Forall fun op => op.bufs ⊆ tcRefs τ sig :=
  binary_bufs_sub ..
theorem seg1_sub : (seg1 : List (HloOp τ sig (Elt F))).Forall fun op => op.bufs ⊆ tcRefs τ sig :=
  ⟨nullary_bufs_sub .., unary_bufs_sub .., nullary_bufs_sub .., nullary_bufs_sub .., unary_bufs_sub .., binary_bufs_sub ..,
    nullary_bufs_sub .., binary_bufs_sub .., nullary_bufs_sub .., unary_bufs_sub .., ternary_bufs_sub .., nullary_bufs_sub ..,
    unary_bufs_sub .., binary_bufs_sub .., reshape_bufs_sub .., unary_bufs_sub .., nullary_bufs_sub .., unary_bufs_sub ..,
    binary_bufs_sub ..⟩
theorem seg2_sub : (seg2 : List (HloOp τ sig (Elt F))).Forall fun op => op.bufs ⊆ tcRefs τ sig :=
  ⟨nullary_bufs_sub .., unary_bufs_sub .., nullary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., nullary_bufs_sub .., unary_bufs_sub .., ternary_bufs_sub ..⟩
theorem seg3_sub : (seg3 : List (HloOp τ sig (Elt F))).Forall fun op => op.bufs ⊆ tcRefs τ sig :=
  ⟨nullary_bufs_sub .., unary_bufs_sub .., binary_bufs_sub ..⟩
theorem seg4_sub : (seg4 : List (HloOp τ sig (Elt F))).Forall fun op => op.bufs ⊆ tcRefs τ sig :=
  ⟨nullary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub ..⟩
theorem seg5_sub : (seg5 : List (HloOp τ sig (Elt F))).Forall fun op => op.bufs ⊆ tcRefs τ sig :=
  ⟨nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub ..⟩
theorem seg6_sub : (seg6 : List (HloOp τ sig (Elt F))).Forall fun op => op.bufs ⊆ tcRefs τ sig :=
  ⟨nullary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub ..⟩
theorem seg7_sub : (seg7 : List (HloOp τ sig (Elt F))).Forall fun op => op.bufs ⊆ tcRefs τ sig :=
  ⟨nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub ..⟩
theorem seg8_sub : (seg8 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., unary_bufs_sub .., unary_bufs_sub .., binary_bufs_sub .., binary_bufs_sub ..,
    unary_bufs_sub ..⟩

theorem ops_sub : (ops : List (HloOp τ sig (Elt F))).Forall fun op => op.bufs ⊆ tcRefs τ sig :=
  List.forall_append.mpr ⟨seg0_sub, List.forall_append.mpr ⟨seg1_sub, List.forall_append.mpr ⟨seg2_sub,
    List.forall_append.mpr ⟨seg3_sub, List.forall_append.mpr ⟨seg4_sub, List.forall_append.mpr ⟨seg5_sub,
    List.forall_append.mpr ⟨seg6_sub, List.forall_append.mpr ⟨seg7_sub, seg8_sub⟩⟩⟩⟩⟩⟩⟩⟩

/-- From any memory with zero counters every weakly fair execution of @main terminates, each TensorCore buffer at the
    line's fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## What each stretch leaves

For contents "W" before a stretch, its result buffer afterwards is the stage's term over "W" at the stretch's operands. The
windowed sums, the scatter, the gather and the concatenation are kept folded while the terms are compared:
the comparison never looks inside them. -/

attribute [local irreducible] Host.reduceWindow Host.scatter Host.gather concatenate

/-- The scatter's index column as a function of the running count: clipped below at zero, a negative one counted from
    the end. -/
def idxOf (cs : IVec S1024 32) : IVec S1024 32 :=
  select (cmpi .slt (maxsi (broadcastInDim S1024 ![] bcast_S_S1024 (id (constantI S_ 32 0#32))) cs) (broadcastInDim S1024 ![] bcast_S_S1024 (constantI S_ 32 0#32)))
    (addi (maxsi (broadcastInDim S1024 ![] bcast_S_S1024 (id (constantI S_ 32 0#32))) cs) (broadcastInDim S1024 ![] bcast_S_S1024 (constantI S_ 32 496#32)))
    (maxsi (broadcastInDim S1024 ![] bcast_S_S1024 (id (constantI S_ 32 0#32))) cs)

/-- The histogram as a function of the running count it is taken of. -/
def countsOf (cs : IVec S1024 32) : IVec S496 32 :=
  Host.scatter scatter_S496_S1024x1_S1024_n_0_0_1 IntOp.addi (broadcastInDim S496 ![] bcast_S_S496 (constantI S_ 32 0#32))
    (broadcastInDim S1024x1 ![0] bcast_S1024_S1024x1_0 (idxOf cs)) (broadcastInDim S1024 ![] bcast_S_S1024 (constantI S_ 32 1#32))

/-- The running count of a histogram. -/
def flatOf (h : IVec S496 32) : IVec S496 32 :=
  Host.reduceWindow IntOp.addi ![496] ![1] ![495] ![0] h Tri.zero0 reduceWindows_S496_S496_w496s1p495_0 h_S_

theorem seg0_v0 (W : Valuation τ sig (Elt F)) :
    after seg0 W (main_v0 : DevRef τ sig)
      = Host.dotGeneral dot_S16384x32x64_S16384x32x64_S16384x32x32_2_2_1_1_0_0 none (W (main_arg0 : DevRef τ sig)) (W (main_arg0 : DevRef τ sig)) := by
  after_results

theorem seg1_v5 (W : Valuation τ sig (Elt F)) : after seg1 W (main_v5 : DevRef τ sig) = Tri.cs (F := F) := by
  after_results
  rfl

theorem seg2_v15 (W : Valuation τ sig (Elt F)) :
    after seg2 W (main_v15 : DevRef τ sig) = countsOf (W (main_v5 : DevRef τ sig)) := by
  after_results
  rfl

theorem seg3_v16 (W : Valuation τ sig (Elt F)) :
    after seg3 W (main_v16 : DevRef τ sig) = flatOf (W (main_v15 : DevRef τ sig)) := by
  after_results
  rfl

theorem seg4_v17 (W : Valuation τ sig (Elt F)) :
    after seg4 W (main_v17 : DevRef τ sig) = Tri.fdiv (W (main_v16 : DevRef τ sig)) (constantI S_ 32 32#32) := by
  after_results
  rfl

set_option maxHeartbeats 1000000 in
theorem seg5_v18 (W : Valuation τ sig (Elt F)) :
    after seg5 W (main_v18 : DevRef τ sig) = Tri.rem (W (main_v17 : DevRef τ sig)) (constantI S_ 32 32#32) := by
  after_results
  rfl

theorem seg6_v19 (W : Valuation τ sig (Elt F)) :
    after seg6 W (main_v19 : DevRef τ sig) = Tri.fdiv (W (main_v16 : DevRef τ sig)) (constantI S_ 32 1#32) := by
  after_results
  rfl

set_option maxHeartbeats 1000000 in
theorem seg7_v20 (W : Valuation τ sig (Elt F)) :
    after seg7 W (main_v20 : DevRef τ sig) = Tri.rem (W (main_v19 : DevRef τ sig)) (constantI S_ 32 32#32) := by
  after_results
  rfl

theorem seg8_v35 (W : Valuation τ sig (Elt F)) :
    after seg8 W (main_v35 : DevRef τ sig)
      = broadcastInDim S16384x496x1 ![0, 1] bcast_S16384x496_S16384x496x1_0_1
          (Host.gather gather_S16384x32x32_S496x2_S16384x496_0_12_n_n_12_1_1638411 (W (main_v0 : DevRef τ sig))
            (concatenate S496x2 1 [⟨S496x1, broadcastInDim S496x1 ![0] bcast_S496_S496x1_0 (Tri.norm32 (W (main_v18 : DevRef τ sig)))⟩,
                                   ⟨S496x1, broadcastInDim S496x1 ![0] bcast_S496_S496x1_0 (Tri.norm32 (W (main_v20 : DevRef τ sig)))⟩]
              concatenates_S496x1_S496x1_S496x2_d1)) := by
  after_results
  rfl

/-! ## What each stretch keeps

A stretch writes only its own buffers: the argument, the Gram product and an earlier stage's result are still there after it. -/

theorem seg0_arg0 (W : Valuation τ sig (Elt F)) : after seg0 W (main_arg0 : DevRef τ sig) = W (main_arg0 : DevRef τ sig) := by after_results
theorem seg1_arg0 (W : Valuation τ sig (Elt F)) : after seg1 W (main_arg0 : DevRef τ sig) = W (main_arg0 : DevRef τ sig) := by after_results
theorem seg2_arg0 (W : Valuation τ sig (Elt F)) : after seg2 W (main_arg0 : DevRef τ sig) = W (main_arg0 : DevRef τ sig) := by after_results
theorem seg3_arg0 (W : Valuation τ sig (Elt F)) : after seg3 W (main_arg0 : DevRef τ sig) = W (main_arg0 : DevRef τ sig) := by after_results
theorem seg4_arg0 (W : Valuation τ sig (Elt F)) : after seg4 W (main_arg0 : DevRef τ sig) = W (main_arg0 : DevRef τ sig) := by after_results
theorem seg5_arg0 (W : Valuation τ sig (Elt F)) : after seg5 W (main_arg0 : DevRef τ sig) = W (main_arg0 : DevRef τ sig) := by after_results
theorem seg6_arg0 (W : Valuation τ sig (Elt F)) : after seg6 W (main_arg0 : DevRef τ sig) = W (main_arg0 : DevRef τ sig) := by after_results
theorem seg7_arg0 (W : Valuation τ sig (Elt F)) : after seg7 W (main_arg0 : DevRef τ sig) = W (main_arg0 : DevRef τ sig) := by after_results
theorem seg8_arg0 (W : Valuation τ sig (Elt F)) : after seg8 W (main_arg0 : DevRef τ sig) = W (main_arg0 : DevRef τ sig) := by after_results

theorem seg1_v0 (W : Valuation τ sig (Elt F)) : after seg1 W (main_v0 : DevRef τ sig) = W (main_v0 : DevRef τ sig) := by after_results
theorem seg2_v0 (W : Valuation τ sig (Elt F)) : after seg2 W (main_v0 : DevRef τ sig) = W (main_v0 : DevRef τ sig) := by after_results
theorem seg3_v0 (W : Valuation τ sig (Elt F)) : after seg3 W (main_v0 : DevRef τ sig) = W (main_v0 : DevRef τ sig) := by after_results
theorem seg4_v0 (W : Valuation τ sig (Elt F)) : after seg4 W (main_v0 : DevRef τ sig) = W (main_v0 : DevRef τ sig) := by after_results
theorem seg5_v0 (W : Valuation τ sig (Elt F)) : after seg5 W (main_v0 : DevRef τ sig) = W (main_v0 : DevRef τ sig) := by after_results
theorem seg6_v0 (W : Valuation τ sig (Elt F)) : after seg6 W (main_v0 : DevRef τ sig) = W (main_v0 : DevRef τ sig) := by after_results
theorem seg7_v0 (W : Valuation τ sig (Elt F)) : after seg7 W (main_v0 : DevRef τ sig) = W (main_v0 : DevRef τ sig) := by after_results

theorem seg4_v16 (W : Valuation τ sig (Elt F)) : after seg4 W (main_v16 : DevRef τ sig) = W (main_v16 : DevRef τ sig) := by after_results
theorem seg5_v16 (W : Valuation τ sig (Elt F)) : after seg5 W (main_v16 : DevRef τ sig) = W (main_v16 : DevRef τ sig) := by after_results
theorem seg6_v18 (W : Valuation τ sig (Elt F)) : after seg6 W (main_v18 : DevRef τ sig) = W (main_v18 : DevRef τ sig) := by after_results
theorem seg7_v18 (W : Valuation τ sig (Elt F)) : after seg7 W (main_v18 : DevRef τ sig) = W (main_v18 : DevRef τ sig) := by after_results

/-! ## The whole line -/

/-- The line's fold is the nine stretches' folds, one after the other. -/
theorem after_ops (V : Valuation τ sig (Elt F)) :
    after ops V = after seg8 (after seg7 (after seg6 (after seg5 (after seg4 (after seg3 (after seg2 (after seg1 (after seg0 V)))))))) := by
  simp only [ops, after_app]

/-- The result buffer after the line: the last stretch's term, its operands traced back through the stretches that
    keep them to the stretches that make them, is the stages of "Tri" composed. -/
theorem out_eq (V : Valuation τ sig (Elt F)) :
    after ops V (main_v35 : DevRef τ sig) = Tri.refOut (V (main_arg0 : DevRef τ sig)) := by
  rw [after_ops, seg8_v35, seg7_v0, seg6_v0, seg5_v0, seg4_v0, seg3_v0, seg2_v0, seg1_v0, seg0_v0,
    seg7_v18, seg6_v18, seg5_v18, seg4_v17,
    seg7_v20, seg6_v19, seg5_v16, seg4_v16,
    seg3_v16, seg2_v15, seg1_v5]
  rfl

/-- No stretch writes the argument. -/
theorem arg0_eq (V : Valuation τ sig (Elt F)) :
    after ops V (main_arg0 : DevRef τ sig) = V (main_arg0 : DevRef τ sig) := by
  rw [after_ops, seg8_arg0, seg7_arg0, seg6_arg0, seg5_arg0, seg4_arg0, seg3_arg0, seg2_arg0, seg1_arg0, seg0_arg0]

/-- Every weakly fair execution of the reference ends with its result at `Tri.refOut` of the argument, the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v35) = Tri.refOut (m ((c.tc : Thread nD τ).loc main_arg0))
      ∧ r.2.mem ((c.tc : Thread nD τ).loc main_arg0) = m ((c.tc : Thread nD τ).loc main_arg0) :=
  (θ_run defs _ _).mono (fun _ h c => ⟨(h c main_v35).trans (out_eq (launchContents m c)),
      (h c main_arg0).trans (arg0_eq (launchContents m c))⟩)
    (run_main m ρ)

end Cert.ReferenceIdeal.RefRun

end
-- ==== Proof.RefGram.lean ====
/-
  The host's batched product of the argument with itself is the Gram array.

  The product's dimension numbers pair batch axis 0 with 0 and contract axis 2 with 2; axis 1 of each operand is free.
  So the result's axes are (batch, left row, right row), and at result index `[b, n, m]` and contraction position `d`
  the left operand is read at `[b, n, d]` and the right operand at `[b, m, d]`. The six coordinate facts below say
  exactly this, one per operand axis; with the one-axis contraction index identified with `Fin 64`, the product's sum
  becomes the Gram array's sum term by term.
-/
import proofs.«111995_j20126216749638_1_alg».proof.ReferenceIdeal
import proofs.«111995_j20126216749638_1_alg».proof.Proof.Spec
import Idealize.ShloMosaic.PureOps.Ideal.Laws
import Idealize.ShloMosaic.Lib.ValueIdx

noncomputable section

namespace Cert.ReferenceIdeal.RefGram

open Idealize.ShloMosaic Idealize.ShloMosaic.ValueIdx Cert.ReferenceIdeal
open Facts₀ Facts

variable [Facts]

/-! ## The operand indices, axis by axis -/

/-- Left operand, axis 0 (the batch axis): the result's first coordinate. -/
theorem lhs_axis0 (j : S16384x32x32.Idx) (k : dot_S16384x32x64_S16384x32x64_S16384x32x32_2_2_1_1_0_0.contr.Idx) :
    (dot_S16384x32x64_S16384x32x64_S16384x32x32_2_2_1_1_0_0.lhsIdx j k 0).val = (j 0).val := by
  unfold DotDims.lhsIdx
  rw [dif_pos (show (0 : Fin S16384x32x64.rank) ∈ dot_S16384x32x64_S16384x32x64_S16384x32x32_2_2_1_1_0_0.lhsBatch from List.mem_singleton.mpr rfl)]
  rfl

/-- Left operand, axis 1 (its free axis, the first after the batch axis in the result): the result's second coordinate. -/
theorem lhs_axis1 (j : S16384x32x32.Idx) (k : dot_S16384x32x64_S16384x32x64_S16384x32x32_2_2_1_1_0_0.contr.Idx) :
    (dot_S16384x32x64_S16384x32x64_S16384x32x32_2_2_1_1_0_0.lhsIdx j k 1).val = (j 1).val := by
  unfold DotDims.lhsIdx
  rw [dif_neg (show ¬ (1 : Fin S16384x32x64.rank) ∈ dot_S16384x32x64_S16384x32x64_S16384x32x32_2_2_1_1_0_0.lhsBatch from (by decide : ¬ (1 : Fin 3) ∈ ([0] : List (Fin 3)))),
      dif_pos (show (1 : Fin S16384x32x64.rank) ∈ dot_S16384x32x64_S16384x32x64_S16384x32x32_2_2_1_1_0_0.lhsNonContracting from List.mem_singleton.mpr rfl)]
  rfl

/-- Left operand, axis 2 (the contracted axis): the contraction position's one coordinate. -/
theorem lhs_axis2 (j : S16384x32x32.Idx) (k : dot_S16384x32x64_S16384x32x64_S16384x32x32_2_2_1_1_0_0.contr.Idx) :
    (dot_S16384x32x64_S16384x32x64_S16384x32x32_2_2_1_1_0_0.lhsIdx j k 2).val = (k ⟨0, Nat.one_pos⟩).val :=
  DotDims.lhsIdx_val_of_single _ rfl j k

/-- Right operand, axis 0 (the batch axis): the result's first coordinate, as for the left operand. -/
theorem rhs_axis0 (j : S16384x32x32.Idx) (k : dot_S16384x32x64_S16384x32x64_S16384x32x32_2_2_1_1_0_0.contr.Idx) :
    (dot_S16384x32x64_S16384x32x64_S16384x32x32_2_2_1_1_0_0.rhsIdx j k 0).val = (j 0).val := by
  unfold DotDims.rhsIdx
  rw [dif_pos (show (0 : Fin S16384x32x64.rank) ∈ dot_S16384x32x64_S16384x32x64_S16384x32x32_2_2_1_1_0_0.rhsBatch from List.mem_singleton.mpr rfl)]
  rfl

/-- Right operand, axis 1 (its free axis, placed after the batch axis and the left operand's free axis): the result's
    third coordinate. -/
theorem rhs_axis1 (j : S16384x32x32.Idx) (k : dot_S16384x32x64_S16384x32x64_S16384x32x32_2_2_1_1_0_0.contr.Idx) :
    (dot_S16384x32x64_S16384x32x64_S16384x32x32_2_2_1_1_0_0.rhsIdx j k 1).val = (j 2).val := by
  unfold DotDims.rhsIdx
  rw [dif_neg (show ¬ (1 : Fin S16384x32x64.rank) ∈ dot_S16384x32x64_S16384x32x64_S16384x32x32_2_2_1_1_0_0.rhsBatch from (by decide : ¬ (1 : Fin 3) ∈ ([0] : List (Fin 3)))),
      dif_pos (show (1 : Fin S16384x32x64.rank) ∈ dot_S16384x32x64_S16384x32x64_S16384x32x32_2_2_1_1_0_0.rhsNonContracting from List.mem_singleton.mpr rfl)]
  rfl

/-- Right operand, axis 2 (the contracted axis): the contraction position's one coordinate. -/
theorem rhs_axis2 (j : S16384x32x32.Idx) (k : dot_S16384x32x64_S16384x32x64_S16384x32x32_2_2_1_1_0_0.contr.Idx) :
    (dot_S16384x32x64_S16384x32x64_S16384x32x32_2_2_1_1_0_0.rhsIdx j k 2).val = (k ⟨0, Nat.one_pos⟩).val :=
  DotDims.rhsIdx_val_of_single _ rfl j k

/-! ## The product at an index -/

/-- Batch axis 0 against 0, contracting axis 2 against 2: entry `[b, n, m]` is `∑ d, x[b, n, d] · x[b, m, d]`. -/
theorem dotGeneral_eq_gram (x : FVec Ideal S16384x32x64 .f32) :
    Host.dotGeneral (F := Ideal) dot_S16384x32x64_S16384x32x64_S16384x32x32_2_2_1_1_0_0 none x x = Cert.Spec.gram x := by
  funext j
  unfold Cert.Spec.gram
  simp only [Host.dotGeneral]
  -- the product at `j` is the sum over the contraction positions of the operands' products
  rw [Ideal.dotGeneral_apply]
  -- a contraction position is its one coordinate `d : Fin 64`
  rw [← Equiv.sum_comp (contrEquiv1 dot_S16384x32x64_S16384x32x64_S16384x32x32_2_2_1_1_0_0 64 rfl rfl).symm]
  refine Finset.sum_congr rfl (fun k _ => ?_)
  have hk := contrEquiv1_symm_val dot_S16384x32x64_S16384x32x64_S16384x32x32_2_2_1_1_0_0 64 rfl rfl k
  -- the left operand is read at `[b, n, d]`
  have hl : dot_S16384x32x64_S16384x32x64_S16384x32x32_2_2_1_1_0_0.lhsIdx j
      ((contrEquiv1 dot_S16384x32x64_S16384x32x64_S16384x32x32_2_2_1_1_0_0 64 rfl rfl).symm k)
      = ix3 (n0 := 16384) (n1 := 32) (n2 := 64) (j 0) (j 1) k := by
    funext a
    apply Fin.ext
    match a with
    | ⟨0, _⟩ => exact lhs_axis0 _ _
    | ⟨1, _⟩ => exact lhs_axis1 _ _
    | ⟨2, _⟩ => exact (lhs_axis2 _ _).trans hk
  -- the right operand is read at `[b, m, d]`
  have hr : dot_S16384x32x64_S16384x32x64_S16384x32x32_2_2_1_1_0_0.rhsIdx j
      ((contrEquiv1 dot_S16384x32x64_S16384x32x64_S16384x32x32_2_2_1_1_0_0 64 rfl rfl).symm k)
      = ix3 (n0 := 16384) (n1 := 32) (n2 := 64) (j 0) (j 2) k := by
    funext a
    apply Fin.ext
    match a with
    | ⟨0, _⟩ => exact rhs_axis0 _ _
    | ⟨1, _⟩ => exact rhs_axis1 _ _
    | ⟨2, _⟩ => exact (rhs_axis2 _ _).trans hk
  rw [hl, hr]

end Cert.ReferenceIdeal.RefGram

end
-- ==== Proof.TriWords.lean ====
/-
  The word-level stages of the reference's index computation, one entry at a time.

  The mask of the strict upper triangle as 0/1 words; clipping at zero and wrapping a negative index, which change nothing
  on a non-negative word; the lowered floored division by 32 and by 1 and the lowered floored remainder by 32 on a small
  non-negative word, which are the natural-number quotient and remainder.
-/
import proofs.«111995_j20126216749638_1_alg».proof.Proof.TriDefs
import proofs.«111995_j20126216749638_1_alg».proof.Proof.Spec
import Idealize.ShloMosaic.PureOps.Ideal
import Idealize.ShloMosaic.Lib.ValueIdx
import Idealize.ShloMosaic.Lib.Pipeline.Value
import Idealize.ShloMosaic.Lib.WordArith
import Idealize.ShloMosaic.Lib.IdealHost

noncomputable section

namespace Cert.ReferenceIdeal.Tri

open Idealize.ShloMosaic Idealize.ShloMosaic.ValueIdx Cert.ReferenceIdeal
open Facts₀ Facts

variable {F : FTy → Type} [FloatOps F] [Facts]

/-! ## Signed comparisons of small words -/

/-- A word whose natural value is below `2³¹` has a non-negative signed reading, so it is not signed-below zero. -/
theorem not_slt_zero (x : BitVec 32) (h : x.toNat < 2 ^ 31) : x.slt 0#32 = false := by
  rw [BitVec.slt_eq_decide]
  have h0 : (0#32 : BitVec 32).toInt = 0 := by decide
  rw [h0, BitVec.toInt_eq_toNat_of_lt (by omega)]
  simp

/-- The bit of "signed-below zero" is clear on such a word. -/
theorem cmpi_slt_zero (x : BitVec 32) (h : x.toNat < 2 ^ 31) : IntOp.cmpi .slt x 0#32 = 0#1 := by
  show BitVec.ofBool (x.slt 0#32) = 0#1
  rw [not_slt_zero x h]
  rfl

/-- Two numbers below `2³¹` compare signed, as words, the way they compare as numbers. -/
theorem sle_ofNat_small (c r : ℕ) (hc : c < 2 ^ 31) (hr : r < 2 ^ 31) :
    (BitVec.ofNat 32 c).sle (BitVec.ofNat 32 r) = decide (c ≤ r) := by
  rw [BitVec.sle_eq_decide, WordArith.toInt_ofNat_small c hc, WordArith.toInt_ofNat_small r hr]
  simp

/-! ## The mask -/

/-- At row `r`, column `c` the square holds zero where `c ≤ r` and one elsewhere, and one differs from zero: the mask's
    bit is set exactly where `r < c`. -/
theorem maskB_apply (r c : Fin 32) :
    maskB (F := Ideal) (ix2 r c) = BitVec.ofBool (decide (r.val < c.val)) := by
  have hr := r.isLt
  have hc := c.isLt
  have hcmp : IntOp.cmpi .sge (IntOp.addi (BitVec.ofNat 32 r.val) 0#32) (BitVec.ofNat 32 c.val)
      = BitVec.ofBool (decide (c.val ≤ r.val)) := by
    show BitVec.ofBool ((BitVec.ofNat 32 c.val).sle (BitVec.ofNat 32 r.val + 0#32)) = _
    rw [BitVec.add_zero, sle_ofNat_small _ _ (by omega) (by omega)]
  show BitVec.ofBool (decide (Scalar.select (IntOp.cmpi .sge (IntOp.addi (BitVec.ofNat 32 r.val) 0#32) (BitVec.ofNat 32 c.val))
      (Ideal.ofBits .f32 0x00000000#32) (Ideal.ofBits .f32 0x3F800000#32) ≠ Ideal.ofBits .f32 0x00000000#32)) = _
  rw [hcmp, Ideal.ofBits_zero_f32, Ideal.ofBits_one_f32]
  by_cases h : r.val < c.val
  · have h' : decide (c.val ≤ r.val) = false := by simp; omega
    rw [h']
    show BitVec.ofBool (decide (Scalar.select 0#1 (0 : EReal) 1 ≠ 0)) = _
    rw [select_zero]
    simp [h]
  · have h' : decide (c.val ≤ r.val) = true := by simp; omega
    rw [h']
    show BitVec.ofBool (decide (Scalar.select 1#1 (0 : EReal) 1 ≠ 0)) = _
    rw [select_one]
    simp [h]

/-- The widened mask at flat position `i` is one exactly above the diagonal. -/
theorem maskW_toNat (i : S1024.Idx) : (maskW (F := Ideal) i).toNat = Cert.Spec.maskN (i 0).val := by
  have hi : (i 0).val < 1024 := (i 0).isLt
  -- flat position `i` of the row-major square is row `i / 32`, column `i % 32`
  have e : maskW (F := Ideal) i
      = (maskB (F := Ideal) (ix2 ⟨(i 0).val / 32, by omega⟩ ⟨(i 0).val % 32, by omega⟩)).setWidth 32 := by
    show (shapeCast S1024 (maskB (F := Ideal)) shapeCasts_S32x32_S1024 i).setWidth 32 = _
    rw [shapeCast_apply _ _ i (ix2 ⟨(i 0).val / 32, by omega⟩ ⟨(i 0).val % 32, by omega⟩)]
    rw [Shape.rowMajor_val_two, Shape.rowMajor_val_one]
    show (i 0).val / 32 * 32 + (i 0).val % 32 = (i 0).val
    omega
  rw [e, maskB_apply]
  show _ = (if (i 0).val / 32 < (i 0).val % 32 then 1 else 0)
  by_cases h : (i 0).val / 32 < (i 0).val % 32
  · simp [h]
  · simp [h]

/-! ## Clipping and wrapping -/

/-- Clipping at zero and wrapping negatives leave a vector of small non-negative words as it is. -/
theorem csIdx_apply (i : S1024.Idx) (h : (cs (F := F) i).toNat < 2 ^ 31) : csIdx (F := F) i = cs (F := F) i := by
  -- the signed maximum with zero keeps a word that is not below zero
  have hc : csClip (F := F) i = cs (F := F) i := by
    show (if (cs (F := F) i).slt 0#32 = true then 0#32 else cs (F := F) i) = _
    rw [not_slt_zero _ h]
    rfl
  show Scalar.select (IntOp.cmpi .slt (csClip (F := F) i) 0#32) (IntOp.addi (csClip (F := F) i) 496#32) (csClip (F := F) i) = _
  rw [hc, cmpi_slt_zero _ h, select_zero]

/-! ## The lowered floored quotient and remainder, on one pair of words -/

/-- The sign of a word as `-1`, `0` or `1`. -/
def sgnW (x : BitVec 32) : BitVec 32 := if x = 0 then 0 else if x.msb then -1 else 1

/-- The lowered floored quotient: the truncated one, less one where the signs differ and the remainder is not zero. -/
def fdivW (x d : BitVec 32) : BitVec 32 :=
  Scalar.select (IntOp.andi (IntOp.cmpi .ne (sgnW x) (sgnW d)) (IntOp.cmpi .ne (IntOp.remsi .host x d) 0#32))
    (IntOp.subi (IntOp.divsi .host x d) 1#32) (IntOp.divsi .host x d)

/-- The divisor the remainder uses: one in place of zero. -/
def remDivW (d : BitVec 32) : BitVec 32 := Scalar.select (IntOp.cmpi .eq d 0#32) 1#32 d

/-- The lowered floored remainder: the truncated one, plus the divisor where it is not zero and its sign differs from the
    divisor's. -/
def remW (x d : BitVec 32) : BitVec 32 :=
  Scalar.select (IntOp.andi
      (IntOp.cmpi .ne (IntOp.cmpi .slt (IntOp.remsi .host x (remDivW d)) 0#32) (IntOp.cmpi .slt (remDivW d) 0#32))
      (IntOp.cmpi .ne (IntOp.remsi .host x (remDivW d)) 0#32))
    (IntOp.addi (IntOp.remsi .host x (remDivW d)) (remDivW d)) (IntOp.remsi .host x (remDivW d))

/-- Every word below 1024 has the natural quotient by 32 as its lowered floored quotient (both operands are positive or the
    dividend is zero, so no correction applies): checked on each of the 1024 words. -/
theorem fdiv32_word : ∀ a : Fin 1024, fdivW (BitVec.ofNat 32 a.val) 32#32 = BitVec.ofNat 32 (a.val / 32) := by
  decide +kernel

/-- Every word below 1024 has the natural remainder by 32 as its lowered floored remainder (the truncated remainder of a
    non-negative word by a positive one is not negative, so no correction applies): checked on each of the 1024 words. -/
theorem rem32_word : ∀ a : Fin 1024, remW (BitVec.ofNat 32 a.val) 32#32 = BitVec.ofNat 32 (a.val % 32) := by
  decide +kernel

/-- The lowered floored division by 32 of a small non-negative word. -/
theorem fdiv32_apply (x : IVec S496 32) (k : S496.Idx) (a : ℕ) (ha : a < 1024) (hx : x k = BitVec.ofNat 32 a) :
    fdiv x (constantI S_ 32 32#32) k = BitVec.ofNat 32 (a / 32) := by
  show fdivW (x k) 32#32 = _
  rw [hx]
  exact fdiv32_word ⟨a, ha⟩

/-- The lowered floored division by one is the identity. -/
theorem fdiv1_apply (x : IVec S496 32) (k : S496.Idx) : fdiv x (constantI S_ 32 1#32) k = x k := by
  -- the remainder by one is zero, so the correction's condition fails, and the truncated quotient by one is the word
  show Scalar.select (IntOp.andi (IntOp.cmpi .ne (sgnW (x k)) (sgnW 1#32)) (IntOp.cmpi .ne (IntOp.remsi .host (x k) 1#32) 0#32))
    (IntOp.subi (IntOp.divsi .host (x k) 1#32) 1#32) (IntOp.divsi .host (x k) 1#32) = x k
  rw [WordArith.remsi_one, WordArith.divsi_one]
  have h : IntOp.cmpi .ne (0#32 : BitVec 32) 0#32 = 0#1 := by decide
  rw [h]
  show Scalar.select (IntOp.cmpi .ne (sgnW (x k)) (sgnW 1#32) &&& 0#1) _ _ = _
  rw [BitVec.and_zero, select_zero]

/-- The lowered floored remainder by 32 of a small non-negative word. -/
theorem rem32_apply (x : IVec S496 32) (k : S496.Idx) (a : ℕ) (ha : a < 1024) (hx : x k = BitVec.ofNat 32 a) :
    rem x (constantI S_ 32 32#32) k = BitVec.ofNat 32 (a % 32) := by
  show remW (x k) 32#32 = _
  rw [hx]
  exact rem32_word ⟨a, ha⟩

/-- Wrapping a negative coordinate leaves a coordinate in `0 … 31` as it is. -/
theorem norm32_apply (r : IVec S496 32) (k : S496.Idx) (a : ℕ) (ha : a < 32) (hr : r k = BitVec.ofNat 32 a) :
    norm32 r k = BitVec.ofNat 32 a := by
  have hlt : (r k).toNat < 2 ^ 31 := by rw [hr, BitVec.toNat_ofNat]; omega
  show Scalar.select (IntOp.cmpi .slt (r k) 0#32) (IntOp.addi (r k) 32#32) (r k) = _
  rw [cmpi_slt_zero _ hlt, select_zero]
  exact hr

end Cert.ReferenceIdeal.Tri

end
-- ==== Proof.TriCount.lean ====
/-
  The enumeration of the pairs above the diagonal, on natural numbers.

  `csN` is the running count of `maskN` (checked position by position: it starts at `maskN 0` and each step adds the next
  position's mask), it never exceeds 496, and for every `k < 496` the number of positions whose running count is at most
  `k` is `32·n + m` for the `k`-th pair `(n, m)` of the two literal tables `rowT`, `colT` handed in as functions.
-/
import proofs.«111995_j20126216749638_1_alg».proof.Proof.Spec

namespace Cert.Spec

theorem csN_zero : csN 0 = maskN 0 := by decide

theorem csN_succ : ∀ j : Fin 1023, csN (j.val + 1) = csN j.val + maskN (j.val + 1) := by decide +kernel

theorem csN_le : ∀ j : Fin 1024, csN j.val ≤ 496 := by decide +kernel

/-- `csN` is the sum of the mask over the positions `0 … j`. -/
theorem csN_eq_sum (j : ℕ) (hj : j < 1024) : csN j = ∑ i ∈ Finset.range (j + 1), maskN i := by
  induction j with
  | zero => simp [csN_zero]
  | succ j ih =>
    rw [Finset.sum_range_succ, ← ih (by omega)]
    exact csN_succ ⟨j, by omega⟩

theorem maskN_le (i : ℕ) : maskN i ≤ 1 := by unfold maskN; split <;> omega

end Cert.Spec
-- ==== Proof.LibCumsum.lean ====
/-
  A running sum of words, read as natural numbers.

  jnp's `cumsum` of a length-`n` vector is printed as a reduce-window: a window of `n` positions, padded `n - 1` low, slid
  with stride one, folded with integer addition from zero. Position `j` of the result therefore adds the operand's
  entries `0 … j` (the window's other positions fall in the padding and add zero). As long as the total does not wrap,
  the result's value as a natural number is the sum of the entries' values.
-/
import Idealize.ShloMosaic.PureOps
import Idealize.ShloMosaic.Lib.ValueIdx

noncomputable section

namespace Cert.LibFold

open Idealize.ShloMosaic Idealize.ShloMosaic.ValueIdx

/-- Folding word addition over a list adds up the values, as long as the running total stays below `2 ^ 32`:
    every partial sum is at most the total, so no single addition wraps. -/
theorem foldl_addi_toNat {ι : Type} (g : ι → BitVec 32) :
    ∀ (l : List ι) (v : BitVec 32), v.toNat + (l.map fun a => (g a).toNat).sum < 2 ^ 32 →
      (l.foldl (fun r a => IntOp.addi r (g a)) v).toNat = v.toNat + (l.map fun a => (g a).toNat).sum
  | [], v, _ => by simp
  | a :: l, v, h => by
    simp only [List.foldl_cons, List.map_cons, List.sum_cons] at h ⊢
    have h1 : (IntOp.addi v (g a)).toNat = v.toNat + (g a).toNat := by
      show (v + g a).toNat = _
      rw [BitVec.toNat_add, Nat.mod_eq_of_lt (by omega)]
    rw [foldl_addi_toNat g l _ (by rw [h1]; omega), h1]; omega

/-- In a rank-one shape the multi-index at row-major position `m` has coordinate `m`. -/
theorem rowMajor_symm_one {d : Fin 1 → ℕ} (m : Fin (⟨1, d⟩ : Shape).numel) :
    (((⟨1, d⟩ : Shape).rowMajor.symm m) 0).val = m.val := by
  have := Shape.rowMajor_val_one ((⟨1, d⟩ : Shape).rowMajor.symm m)
  rw [Equiv.apply_symm_apply] at this
  exact this.symm

/-- The window's sum re-indexed: of the window positions `k < n` at result position `j < n`, those with
    `n - 1 ≤ j + k` meet the operand, at `j + k - (n - 1)`; they are the operand's entries `0 … j`. -/
theorem sum_window (xN : ℕ → ℕ) {n j : ℕ} (hj : j < n) :
    ∑ k ∈ Finset.range n, (if n - 1 ≤ j + k then xN (j + k - (n - 1)) else 0)
      = ∑ i ∈ Finset.range (j + 1), xN i := by
  rw [← Finset.sum_range_add_sum_Ico _ (show n - 1 - j ≤ n by omega)]
  rw [Finset.sum_eq_zero (s := Finset.range (n - 1 - j)), zero_add, Finset.sum_Ico_eq_sum_range]
  · rw [show n - (n - 1 - j) = j + 1 by omega]
    refine Finset.sum_congr rfl fun i hi => ?_
    rw [Finset.mem_range] at hi
    rw [if_pos (by omega)]
    congr 1; omega
  · intro k hk
    rw [Finset.mem_range] at hk
    rw [if_neg (by omega)]

/-- Folding word addition from zero over positions `0 … N - 1`, the word at position `m` having value `F m`, gives
    the sum of `F` over those positions when that sum stays below `2 ^ 32`. -/
theorem foldl_window {N : ℕ} (G : Fin N → BitVec 32) (F : ℕ → ℕ) (hG : ∀ m, (G m).toNat = F m.val)
    (v : BitVec 32) (hv : v = 0#32) (hb : ∑ k ∈ Finset.range N, F k < 2 ^ 32) :
    ((List.finRange N).foldl (fun r m => IntOp.addi r (G m)) v).toNat = ∑ k ∈ Finset.range N, F k := by
  have hs : ((List.finRange N).map fun m => (G m).toNat).sum = ∑ k ∈ Finset.range N, F k := by
    rw [← Fin.sum_univ_eq_sum_range, Fin.sum_univ_def]
    simp only [hG]
  subst hv
  rw [foldl_addi_toNat G _ _ (by rw [hs]; simpa using hb), hs]
  simp

/-- The running sum at `j`, as a natural number, is the sum of the operand's values at `0 … j`. -/
theorem cumsum_toNat {n : ℕ} (x : IVec (⟨1, ![n]⟩ : Shape) 32) (init : IVec (⟨0, ![]⟩ : Shape) 32) (xN : ℕ → ℕ)
    (hx : ∀ i, (x i).toNat = xN (i 0).val) (hinit : ∀ i, init i = 0#32)
    (hb : ∑ i ∈ Finset.range n, xN i < 2 ^ 32)
    (h : (⟨1, ![n]⟩ : Shape).ReduceWindows (![n] : Fin 1 → ℕ) ![1] ![n - 1] ![0] ⟨1, ![n]⟩)
    (hu : 0 < (⟨0, ![]⟩ : Shape).numel) (j : (⟨1, ![n]⟩ : Shape).Idx) :
    (Host.reduceWindow IntOp.addi ![n] ![1] ![n - 1] ![0] x init h hu j).toNat
      = ∑ i ∈ Finset.range ((j 0).val + 1), xN i := by
  have hj : (j 0).val < n := (j 0).isLt
  have hnum : (⟨1, ![n]⟩ : Shape).numel = n := by simp [Shape.numel]
  have hv : init (Shape.Idx.first hu) = 0#32 := hinit _
  unfold Host.reduceWindow
  simp only []
  refine (foldl_window _ (fun k => if n - 1 ≤ (j 0).val + k then xN ((j 0).val + k - (n - 1)) else 0)
    (fun m => ?_) _ hv ?_).trans ?_
  · have h0 : (((⟨1, ![n]⟩ : Shape).rowMajor.symm m) 0).val = m.val := rowMajor_symm_one m
    have hm : m.val < n := lt_of_lt_of_eq m.isLt hnum
    split
    · rename_i hin
      obtain ⟨h1, -⟩ := hin 0
      change n - 1 ≤ (j 0).val * 1 + ((⟨1, ![n]⟩ : Shape).rowMajor.symm m 0).val at h1
      rw [h0] at h1
      rw [hx, if_pos (by omega)]
      congr 1
      show (j 0).val * 1 + ((⟨1, ![n]⟩ : Shape).rowMajor.symm m 0).val - (n - 1) = _
      rw [h0]; omega
    · rename_i hin
      have hc : ¬ (n - 1 ≤ (j 0).val + m.val) := fun hc => hin (Fin.forall_fin_one.2 (by
        show n - 1 ≤ (j 0).val * 1 + ((⟨1, ![n]⟩ : Shape).rowMajor.symm m 0).val ∧
          (j 0).val * 1 + ((⟨1, ![n]⟩ : Shape).rowMajor.symm m 0).val - (n - 1) < n
        rw [h0]; omega))
      rw [hv, if_neg hc]; rfl
  · rw [hnum, sum_window xN hj]
    exact lt_of_le_of_lt (Finset.sum_le_sum_of_subset (Finset.range_mono (by omega))) hb
  · rw [hnum, sum_window xN hj]

end Cert.LibFold

end
-- ==== Proof.LibScatter.lean ====
/-
  A histogram by scatter-add, read as natural numbers.

  A `bincount` is printed as a scatter with integer addition: into 496 zero buckets, each of 1024 positions adds one
  to the bucket its index word names, and an index outside `0 … 495` is dropped. Bucket `v` therefore ends at the number
  of positions whose index is `v`.

  The argument in three steps. (1) A left fold whose step either adds one at a single bucket or does nothing ends, at
  bucket `v`, at the start value plus the number of steps that chose `v`; the scatter with addition and all-ones
  updates is such a fold. (2) For these dimension numbers the bucket chosen by update position `j` is the index word at
  `j` read signed, when that lies below 496, and no bucket otherwise; the words are below `2 ^ 31`, so signed and
  unsigned readings agree. (3) The row-major position of a rank-one index is its coordinate, so counting over all
  update positions is counting over `0 … 1023`; the count is at most 1024 and does not wrap in 32 bits.
-/
import proofs.«111995_j20126216749638_1_alg».proof.ReferenceIdeal
import Idealize.ShloMosaic.Lib.ValueIdx

noncomputable section

namespace Cert.ReferenceIdeal.Hist

open Idealize.ShloMosaic Idealize.ShloMosaic.ValueIdx Cert.ReferenceIdeal
open Facts₀ Facts

/-! ## Step 1: a fold of "add one at one bucket, or do nothing" counts -/

/-- A left fold over `l` whose step at `n` adds one at bucket `i` when `g n = some i` and changes nothing when
    `g n = none`: at bucket `v` it ends at the start value plus the number of `n` in `l` with `g n = some v`
    (as 32-bit words). -/
private theorem foldl_hist {ι κ : Type} {dec : DecidableEq ι} (g : κ → Option ι)
    (step : (ι → BitVec 32) → κ → ι → BitVec 32)
    (hsome : ∀ r n i, g n = some i → step r n = fun i' => if i' = i then r i + 1#32 else r i')
    (hnone : ∀ r n, g n = none → step r n = r)
    (l : List κ) (r0 : ι → BitVec 32) (v : ι) :
    (l.foldl step r0) v = r0 v + BitVec.ofNat 32 (l.countP (fun n => g n = some v)) := by
  induction l generalizing r0 with
  | nil => simp
  | cons n l ih =>
    rw [List.foldl_cons, ih, List.countP_cons]
    cases hg : g n with
    | none => rw [hnone _ _ hg]; simp
    | some i =>
      rw [hsome _ _ _ hg]
      by_cases hv : v = i
      · subst hv
        simp [BitVec.ofNat_add, BitVec.add_assoc, BitVec.add_comm]
      · have : ¬ i = v := fun h => hv h.symm
        simp [hv, this]

/-- A scatter with integer addition whose updates are all one: bucket `v` ends at its operand value plus the number of
    update positions whose result index is `v`. -/
private theorem scatter_addi_ones {s si u : Shape} {w : ℕ} (d : ScatterDims s si u) (x : s.Idx → BitVec 32)
    (idx : IVec si w) (upd : u.Idx → BitVec 32) (hupd : ∀ j, upd j = 1#32) (v : s.Idx) :
    Host.scatter d IntOp.addi x idx upd v
      = x v + BitVec.ofNat 32
          ((List.finRange u.numel).countP (fun n => d.resultIdx? (u.rowMajor.symm n) idx = some v)) := by
  unfold Host.scatter
  refine foldl_hist (fun n => d.resultIdx? (u.rowMajor.symm n) idx) _ ?_ ?_ _ x v
  · intro r n i h
    simp only [h, hupd]
    rfl
  · intro r n h
    simp only [h]

/-- Counting the positions `n < N` with a property of their value, as a list count and as the size of a filtered
    range. -/
private theorem countP_finRange (N : ℕ) (p : ℕ → Prop) [DecidablePred p] :
    (List.finRange N).countP (fun n => p n.val) = ((Finset.range N).filter p).card := by
  have h1 : (List.finRange N).countP (fun n => p n.val) = (List.range N).countP (fun n => p n) := by
    rw [← List.map_coe_finRange_eq_range, List.countP_map]
    rfl
  rw [h1]
  simp [Finset.card, Finset.filter, Finset.range, Multiset.range, List.countP_eq_length_filter]

/-- A 32-bit word made from a natural number below `2 ^ 31` reads, signed, as that number. -/
private theorem toInt_word (n : ℕ) (hn : n < 2 ^ 31) : (BitVec.ofNat 32 n).toInt = (n : ℤ) := by
  rw [BitVec.toInt_eq_toNat_cond, BitVec.toNat_ofNat]
  split <;> omega

/-- The row-major position of a rank-one index is its coordinate. -/
private theorem rowMajor_symm_coord (n : Fin S1024.numel) : ((S1024.rowMajor.symm n) 0).val = n.val := by
  show n.val / 1 = n.val
  exact Nat.div_one _

private theorem numel_S1024 : S1024.numel = 1024 := by
  simp [Shape.numel]

variable [Facts]

/-! ## Step 2: the bucket an update position chooses -/

/-- On the operand's one axis, start plus window coordinate for update position `j` is the index word at `j` read
    signed: the axis is the one the index vector's single component names, and it is an inserted axis, whose window
    coordinate is zero. -/
private theorem start_window (idx : IVec S1024 32) (j : S1024.Idx) (a : Fin S496.rank) :
    scatter_S496_S1024x1_S1024_n_0_0_1.start j (broadcastInDim S1024x1 ![0] bcast_S1024_S1024x1_0 idx) a + scatter_S496_S1024x1_S1024_n_0_0_1.window j a = (idx j).toInt := by
  obtain rfl : a = 0 := Subsingleton.elim _ _
  unfold ScatterDims.start ScatterDims.window
  rw [dif_pos (show (0 : Fin 1) ∈ scatter_S496_S1024x1_S1024_n_0_0_1.scatterDimsToOperandDims from List.mem_singleton.mpr rfl)]
  have hk : ¬ (0 : Fin 1) ∈ scatter_S496_S1024x1_S1024_n_0_0_1.sKept := by
    show ¬ (0 : Fin 1) ∈ (S496.kept [0])
    decide
  rw [dif_neg hk]
  have hsi : scatter_S496_S1024x1_S1024_n_0_0_1.siIdx j ⟨List.idxOf (0 : Fin 1) scatter_S496_S1024x1_S1024_n_0_0_1.scatterDimsToOperandDims,
      List.idxOf_lt_length_iff.2 (List.mem_singleton.mpr rfl)⟩
        = (ix2 (n0 := 1024) (n1 := 1) ⟨(j 0).val, (j 0).isLt⟩ 0 : S1024x1.Idx) := by
    funext b; refine Fin.ext ?_
    match b with
    | ⟨0, _⟩ => rfl
    | ⟨1, _⟩ => rfl
  rw [hsi]
  have hb : broadcastInDim S1024x1 ![0] bcast_S1024_S1024x1_0 idx
      (ix2 (n0 := 1024) (n1 := 1) ⟨(j 0).val, (j 0).isLt⟩ 0 : S1024x1.Idx) = idx j := by
    unfold broadcastInDim
    congr 1
    funext a
    obtain rfl : a = 0 := Subsingleton.elim _ _
    rfl
  rw [hb]
  simp

/-- Update position `j` lands at bucket `v` exactly when its index is `v`'s coordinate. -/
private theorem resultIdx_iff (idx : IVec S1024 32) (iN : ℕ → ℕ) (hidx : ∀ i, idx i = BitVec.ofNat 32 (iN (i 0).val))
    (hiN : ∀ i, i < 1024 → iN i < 2 ^ 31) (j : S1024.Idx) (v : S496.Idx) :
    scatter_S496_S1024x1_S1024_n_0_0_1.resultIdx? j (broadcastInDim S1024x1 ![0] bcast_S1024_S1024x1_0 idx) = some v ↔ iN (j 0).val = (v 0).val := by
  have hst : ∀ a, scatter_S496_S1024x1_S1024_n_0_0_1.start j (broadcastInDim S1024x1 ![0] bcast_S1024_S1024x1_0 idx) a + scatter_S496_S1024x1_S1024_n_0_0_1.window j a = (iN (j 0).val : ℤ) := by
    intro a
    rw [start_window, hidx, toInt_word _ (hiN _ (j 0).isLt)]
  have hv : (v 0).val < 496 := (v 0).isLt
  unfold ScatterDims.resultIdx?
  split
  · rename_i h
    constructor
    · intro hs
      have h0 := congrArg Fin.val (congrFun (Option.some.inj hs) 0)
      simp only [hst] at h0
      omega
    · intro he
      congr 1; funext a; obtain rfl : a = 0 := Subsingleton.elim _ _
      apply Fin.ext
      simp only [hst]
      omega
  · rename_i h
    constructor
    · intro hs; cases hs
    · intro he; exfalso; apply h; intro a
      obtain rfl : a = 0 := Subsingleton.elim _ _
      rw [hst]
      have : (S496.size 0 : ℤ) = 496 := rfl
      constructor <;> omega

/-! ## Step 3: the histogram -/

/-- Bucket `v` of the histogram counts the positions whose index is `v`. -/
theorem histogram_toNat (idx : IVec S1024 32) (iN : ℕ → ℕ) (hidx : ∀ i, idx i = BitVec.ofNat 32 (iN (i 0).val))
    (hiN : ∀ i, i < 1024 → iN i < 2 ^ 31) (v : S496.Idx) :
    (Host.scatter scatter_S496_S1024x1_S1024_n_0_0_1 IntOp.addi (broadcastInDim S496 ![] bcast_S_S496 (constantI S_ 32 0#32))
        (broadcastInDim S1024x1 ![0] bcast_S1024_S1024x1_0 idx) (broadcastInDim S1024 ![] bcast_S_S1024 (constantI S_ 32 1#32)) v).toNat
      = ((Finset.range 1024).filter fun i => iN i = (v 0).val).card := by
  rw [scatter_addi_ones scatter_S496_S1024x1_S1024_n_0_0_1 (broadcastInDim S496 ![] bcast_S_S496 (constantI S_ 32 0#32))
    (broadcastInDim S1024x1 ![0] bcast_S1024_S1024x1_0 idx) (broadcastInDim S1024 ![] bcast_S_S1024 (constantI S_ 32 1#32))
    (fun j => rfl) v]
  have hc : ∀ (inst : DecidablePred fun n : Fin S1024.numel =>
      scatter_S496_S1024x1_S1024_n_0_0_1.resultIdx? (S1024.rowMajor.symm n) (broadcastInDim S1024x1 ![0] bcast_S1024_S1024x1_0 idx) = some v),
      (List.finRange S1024.numel).countP (fun n => @decide _ (inst n))
      = ((Finset.range 1024).filter fun i => iN i = (v 0).val).card := by
    intro inst
    rw [← numel_S1024, ← countP_finRange]
    apply List.countP_congr
    intro n _
    simp only [decide_eq_true_eq]
    rw [resultIdx_iff idx iN hidx hiN, rowMajor_symm_coord]
  rw [hc]
  have hle : ((Finset.range 1024).filter fun i => iN i = (v 0).val).card ≤ 1024 :=
    (Finset.card_filter_le _ _).trans (by simp)
  have h0 : (broadcastInDim S496 ![] bcast_S_S496 (constantI S_ 32 0#32)) v = 0#32 := rfl
  rw [h0]
  simp only [BitVec.zero_add, BitVec.toNat_ofNat]
  omega

end Cert.ReferenceIdeal.Hist

end
-- ==== Proof.TriIdx.lean ====
/-
  The reference's computed index pairs are the kernel program's literal ones.

  Stage by stage, as natural numbers: the widened mask is `maskN`; its running count is `csN`; the histogram's bucket `v`
  is the number of positions whose running count is `v`; the histogram's running count at `k` is the number of positions
  whose running count is at most `k`, which is `posN k`; and `posN k = 32·row k + col k` for the two literal tables, by
  evaluation. The lowered floored division and remainder then split that position into the literal row and column.
-/
import proofs.«111995_j20126216749638_1_alg».proof.Proof.TriWords
import proofs.«111995_j20126216749638_1_alg».proof.Proof.TriCount
import proofs.«111995_j20126216749638_1_alg».proof.Proof.LibCumsum
import proofs.«111995_j20126216749638_1_alg».proof.Proof.LibScatter
import proofs.«111995_j20126216749638_1_alg».proof.Proof.KerDefs

noncomputable section

namespace Cert.ReferenceIdeal.Tri

open Idealize.ShloMosaic Idealize.ShloMosaic.ValueIdx Cert.ReferenceIdeal Cert.Spec
open Facts₀ Facts

variable [Facts] [Cert.KernelIdeal.Facts]

/-- Buckets `0 … K` of a histogram together count the entries whose key is at most `K`. -/
theorem sum_card_fiber (f : ℕ → ℕ) (s : Finset ℕ) (K : ℕ) :
    ∑ v ∈ Finset.range (K + 1), (s.filter fun i => f i = v).card = (s.filter fun i => f i ≤ K).card := by
  induction K with
  | zero => simp
  | succ K ih =>
    rw [Finset.sum_range_succ, ih, ← Finset.card_union_of_disjoint]
    · congr 1
      ext i
      simp only [Finset.mem_union, Finset.mem_filter]
      constructor
      · rintro (⟨h, h'⟩ | ⟨h, h'⟩) <;> exact ⟨h, by omega⟩
      · rintro ⟨h, h'⟩
        by_cases e : f i = K + 1
        · exact Or.inr ⟨h, e⟩
        · exact Or.inl ⟨h, by omega⟩
    · exact Finset.disjoint_filter.2 fun i _ h1 h2 => by omega

/-- The count over the first 1024 positions, as a list's length. -/
theorem card_filter_range (p : ℕ → Prop) [DecidablePred p] (n : ℕ) :
    ((Finset.range n).filter p).card = ((List.range n).filter fun i => decide (p i)).length := by
  rfl

theorem posN_eq_card (k : ℕ) : posN k = ((Finset.range 1024).filter fun i => csN i ≤ k).card := by
  rw [card_filter_range]; rfl

/-- The running count never decreases. -/
theorem csN_mono {i j : ℕ} (hij : i ≤ j) (hj : j < 1024) : csN i ≤ csN j := by
  induction j with
  | zero =>
    have : i = 0 := by omega
    subst this; exact le_rfl
  | succ j ih =>
    rcases Nat.eq_or_lt_of_le hij with h | h
    · subst h; exact le_rfl
    · have h1 := ih (by omega) (by omega)
      have h2 := csN_succ ⟨j, by omega⟩
      simp only at h2
      omega

/-- Where the running count first exceeds `k`: if it is at most `k` just before position `p` and above `k` at `p`, then
    exactly the positions before `p` have a running count of at most `k`. -/
theorem posN_eq (k p : ℕ) (hp : p < 1024) (h1 : k < csN p) (h2 : p = 0 ∨ csN (p - 1) ≤ k) : posN k = p := by
  rw [posN_eq_card]
  have : ((Finset.range 1024).filter fun i => csN i ≤ k) = Finset.range p := by
    ext i
    simp only [Finset.mem_filter, Finset.mem_range]
    constructor
    · rintro ⟨hi, hle⟩
      by_contra hge
      have := csN_mono (not_lt.mp hge) hi
      omega
    · intro hi
      refine ⟨by omega, ?_⟩
      rcases h2 with h2 | h2
      · omega
      · have := csN_mono (show i ≤ p - 1 by omega) (by omega)
        omega
  rw [this, Finset.card_range]

/-- The two literal tables, entry by entry: the pair `(n, m)` has both coordinates below 32, and at position `32·n + m` the
    running count first exceeds `k`. -/
theorem table_facts : ∀ k : Fin 496,
    32 * (Cert.KernelIdeal.lit0t k.val).toNat + (Cert.KernelIdeal.lit1t k.val).toNat < 1024
    ∧ k.val < csN (32 * (Cert.KernelIdeal.lit0t k.val).toNat + (Cert.KernelIdeal.lit1t k.val).toNat)
    ∧ (32 * (Cert.KernelIdeal.lit0t k.val).toNat + (Cert.KernelIdeal.lit1t k.val).toNat = 0
        ∨ csN (32 * (Cert.KernelIdeal.lit0t k.val).toNat + (Cert.KernelIdeal.lit1t k.val).toNat - 1) ≤ k.val)
    ∧ (Cert.KernelIdeal.lit0t k.val).toNat < 32 ∧ (Cert.KernelIdeal.lit1t k.val).toNat < 32 := by
  decide +kernel

/-- The position of the `k`-th kept entry is `32·row + column` of the `k`-th literal pair, both below 32. -/
theorem posN_table (k : Fin 496) : posN k.val = 32 * (Cert.KernelIdeal.lit0t k.val).toNat + (Cert.KernelIdeal.lit1t k.val).toNat
    ∧ (Cert.KernelIdeal.lit0t k.val).toNat < 32 ∧ (Cert.KernelIdeal.lit1t k.val).toNat < 32 := by
  obtain ⟨hp, h1, h2, h3, h4⟩ := table_facts k
  exact ⟨posN_eq _ _ hp h1 h2, h3, h4⟩

theorem zero0_apply (i : S_.Idx) : zero0 i = 0#32 := rfl

theorem idx1024_lt (j : S1024.Idx) : (j 0).val < 1024 := (j 0).isLt
theorem idx496_lt (k : S496.Idx) : (k 0).val < 496 := (k 0).isLt

theorem sum_maskN_lt : ∑ i ∈ Finset.range 1024, maskN i < 2 ^ 32 := by
  have h := csN_eq_sum 1023 (by norm_num)
  have h' := csN_le ⟨1023, by norm_num⟩
  simp only at h h'
  rw [← h]; omega

/-- The running count of the mask at flat position `j`. -/
theorem cs_toNat (j : S1024.Idx) : (cs (F := Ideal) j).toNat = csN (j 0).val := by
  rw [csN_eq_sum _ (idx1024_lt j)]
  exact Cert.LibFold.cumsum_toNat (n := 1024) (maskW (F := Ideal)) zero0 maskN maskW_toNat zero0_apply sum_maskN_lt
    reduceWindows_S1024_S1024_w1024s1p1023_0 h_S_ j

theorem csN_le' (i : ℕ) (hi : i < 1024) : csN i ≤ 496 := csN_le ⟨i, hi⟩

/-- The index each position scatters to: its running count, as a word. -/
theorem csIdx_eq (i : S1024.Idx) : csIdx (F := Ideal) i = BitVec.ofNat 32 (csN (i 0).val) := by
  have hle := csN_le' _ (idx1024_lt i)
  rw [csIdx_apply i (by rw [cs_toNat]; omega)]
  apply BitVec.eq_of_toNat_eq
  rw [cs_toNat, BitVec.toNat_ofNat, Nat.mod_eq_of_lt (by omega)]

/-- Bucket `v` of the histogram: how many positions have running count `v`. -/
theorem counts_toNat (v : S496.Idx) :
    (counts (F := Ideal) v).toNat = ((Finset.range 1024).filter fun i => csN i = (v 0).val).card :=
  Cert.ReferenceIdeal.Hist.histogram_toNat (csIdx (F := Ideal)) csN csIdx_eq (fun i hi => by have := csN_le' i hi; omega) v

theorem sum_counts_lt : ∑ v ∈ Finset.range 496, ((Finset.range 1024).filter fun i => csN i = v).card < 2 ^ 32 := by
  rw [show (496 : ℕ) = 495 + 1 from rfl, sum_card_fiber]
  have := Finset.card_filter_le (Finset.range 1024) (fun i => csN i ≤ 495)
  rw [Finset.card_range] at this
  omega

/-- The flat position of the `k`-th kept entry. -/
theorem flat_toNat (k : S496.Idx) : (flat (F := Ideal) k).toNat = posN (k 0).val := by
  rw [posN_eq_card, ← sum_card_fiber]
  exact Cert.LibFold.cumsum_toNat (n := 496) (counts (F := Ideal)) zero0
    (fun v => ((Finset.range 1024).filter fun i => csN i = v).card) counts_toNat zero0_apply sum_counts_lt
    reduceWindows_S496_S496_w496s1p495_0 h_S_ k

theorem flat_eq (k : S496.Idx) : flat (F := Ideal) k = BitVec.ofNat 32 (posN (k 0).val) := by
  have h := (posN_table ⟨(k 0).val, idx496_lt k⟩).1
  have h1 := (posN_table ⟨(k 0).val, idx496_lt k⟩).2.1
  have h2 := (posN_table ⟨(k 0).val, idx496_lt k⟩).2.2
  simp only at h h1 h2
  apply BitVec.eq_of_toNat_eq
  rw [flat_toNat, BitVec.toNat_ofNat, Nat.mod_eq_of_lt (by omega)]

/-- The computed row of the `k`-th kept entry is the literal one. -/
theorem rows_apply (k : S496.Idx) : rows (F := Ideal) k = Cert.KernelIdeal.KerValue.litRows k := by
  have h := (posN_table ⟨(k 0).val, idx496_lt k⟩).1
  have h1 := (posN_table ⟨(k 0).val, idx496_lt k⟩).2.1
  have h2 := (posN_table ⟨(k 0).val, idx496_lt k⟩).2.2
  simp only at h h1 h2
  have e1 := fdiv32_apply (flat (F := Ideal)) k (posN (k 0).val) (by omega) (flat_eq k)
  have e2 := rem32_apply _ k (posN (k 0).val / 32) (by omega) e1
  have e3 := norm32_apply _ k (posN (k 0).val / 32 % 32) (Nat.mod_lt _ (by norm_num)) e2
  unfold rows
  rw [e3]
  have hq : posN (k 0).val / 32 % 32 = (Cert.KernelIdeal.lit0t (k 0).val).toNat := by omega
  rw [hq, BitVec.ofNat_toNat, BitVec.setWidth_eq]
  show _ = Cert.KernelIdeal.lit0 (Cert.KernelIdeal.S496.rowMajor k)
  have hv : (Cert.KernelIdeal.S496.rowMajor k).val = (k 0).val := Shape.rowMajor_val_one k
  show _ = Cert.KernelIdeal.lit0t (Cert.KernelIdeal.S496.rowMajor k).val
  rw [hv]

/-- The computed column of the `k`-th kept entry is the literal one. -/
theorem cols_apply (k : S496.Idx) : cols (F := Ideal) k = Cert.KernelIdeal.KerValue.litCols k := by
  have h := (posN_table ⟨(k 0).val, idx496_lt k⟩).1
  have h1 := (posN_table ⟨(k 0).val, idx496_lt k⟩).2.1
  have h2 := (posN_table ⟨(k 0).val, idx496_lt k⟩).2.2
  simp only at h h1 h2
  have e1 : fdiv (flat (F := Ideal)) (constantI S_ 32 1#32) k = BitVec.ofNat 32 (posN (k 0).val) :=
    (fdiv1_apply _ k).trans (flat_eq k)
  have e2 := rem32_apply _ k (posN (k 0).val) (by omega) e1
  have e3 := norm32_apply _ k (posN (k 0).val % 32) (Nat.mod_lt _ (by norm_num)) e2
  unfold cols
  rw [e3]
  have hq : posN (k 0).val % 32 = (Cert.KernelIdeal.lit1t (k 0).val).toNat := by omega
  rw [hq, BitVec.ofNat_toNat, BitVec.setWidth_eq]
  show _ = Cert.KernelIdeal.lit1 (Cert.KernelIdeal.S496.rowMajor k)
  have hv : (Cert.KernelIdeal.S496.rowMajor k).val = (k 0).val := Shape.rowMajor_val_one k
  show _ = Cert.KernelIdeal.lit1t (Cert.KernelIdeal.S496.rowMajor k).val
  rw [hv]

/-- A wrap under an all-false mask is the identity. -/
theorem select_false (a b : IVec Cert.KernelIdeal.S496 32) : select (constantI Cert.KernelIdeal.S496 1 0#1) a b = b := rfl

theorem refIdx_eq : refIdx (F := Ideal) = Cert.KernelIdeal.KerValue.kerIdx := by
  have hr : rows (F := Ideal) = Cert.KernelIdeal.KerValue.litRows := funext rows_apply
  have hc : cols (F := Ideal) = Cert.KernelIdeal.KerValue.litCols := funext cols_apply
  unfold refIdx Cert.KernelIdeal.KerValue.kerIdx
  rw [hr, hc, select_false, select_false]

end Cert.ReferenceIdeal.Tri

end
-- ==== Proof.lean ====
/-
  The kernel computes, batch by batch, the Gram matrix `x xᵀ` of a [32, 64] slab and keeps its 496 entries strictly above
  the diagonal; the reference does the same with the host's batched product. At the ideal values the conversion to bf16 is
  the identity and both products are the exact sums `∑ d, x[b, n, d] · x[b, m, d]` (`Cert.Spec.gram`): the kernel's output
  array holds it block by block (`KerGram.final`), the host's product is it (`RefGram.dotGeneral_eq_gram`). The two programs
  differ in where the 496 index pairs come from: the kernel program gathers at two literal tables, the reference at pairs
  it computes on the device by counting the entries of a triangular mask; `Tri.refIdx_eq` shows the computed pairs are the
  literal ones, so the two gathers read the same array at the same places. No law of the extended reals is used: the two
  sides are the same sum, and the precondition is never opened.
-/
import proofs.«111995_j20126216749638_1_alg».proof.Defs
import proofs.«111995_j20126216749638_1_alg».proof.Proof.Gen.Kernel
import proofs.«111995_j20126216749638_1_alg».proof.Proof.Gen.Kernel.Frame
import proofs.«111995_j20126216749638_1_alg».proof.Proof.Gen.KernelIdeal
import proofs.«111995_j20126216749638_1_alg».proof.Proof.Gen.KernelIdeal.Frame
import proofs.«111995_j20126216749638_1_alg».proof.Proof.Gen.ReferenceIdeal
import proofs.«111995_j20126216749638_1_alg».proof.Proof.Gen.Pre_finite_inputs
import proofs.«111995_j20126216749638_1_alg».proof.Proof.KerValue
import proofs.«111995_j20126216749638_1_alg».proof.Proof.RefRun
import proofs.«111995_j20126216749638_1_alg».proof.Proof.RefGram
import proofs.«111995_j20126216749638_1_alg».proof.Proof.TriIdx

noncomputable section

namespace Cert.Proof

open Idealize.ShloMosaic Idealize.SL.Sem

/-- The two results are one array: the same gather of the same Gram array at the same pairs. -/
theorem result_eq (x : FVec Ideal Cert.ReferenceIdeal.S16384x32x64 .f32) :
    Cert.ReferenceIdeal.Tri.refOut (F := Ideal) x = Cert.KernelIdeal.KerValue.kerOut (F := Ideal) (Cert.Spec.gram x) := by
  unfold Cert.ReferenceIdeal.Tri.refOut Cert.KernelIdeal.KerValue.kerOut
  rw [Cert.ReferenceIdeal.RefGram.dotGeneral_eq_gram, Cert.ReferenceIdeal.Tri.refIdx_eq]
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run (F := Ideal) m ρ)

theorem algebraic : Cert.algebraic_KernelIdeal_ReferenceIdeal := by
  intro m ρ m' ρ' _ hagree
  refine ⟨_, Cert.KernelIdeal.KerValue.run m ρ, ?_⟩
  refine (θ_run Cert.ReferenceIdeal.defs _ _).mono (fun _ h c => ⟨(h c).1.trans ?_, (h c).2⟩)
    (Cert.ReferenceIdeal.RefRun.run (F := Ideal) m' ρ')
  rw [hagree c]
  exact result_eq _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
